-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v63)) (v2 : (c : Dev Cert.KernelIdeal.nD) → Buf (Elt Ideal) ((c.tc : Thread Cert.KernelIdeal.nD Cert.KernelIdeal.τ).loc Cert.KernelIdeal.main_v61_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_v61_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000x64 : Shape := ⟨2, ![50000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64 .f32) (main_arg9 : FVec F S64x64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S128x64 .f32) (main_arg6 : FVec F S64 .f32) (main_arg7 : FVec F S128x64 .f32) (main_arg8 : FVec F S64 .f32) (main_arg9 : FVec F S64x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S50000x64 .f32) (main_arg3 : FVec F S128x128 .f32) (main_arg4 : FVec F S128 .f32) (main_arg5 : FVec F S128x64 .f32) (main_arg6 : FVec F S64 .f32) (main_arg7 : FVec F S128x64 .f32) (main_arg8 : FVec F S64 .f32) (main_arg9 : FVec F S64x64 .f32) (main_arg10 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x64 .f32 := Host.absf main_arg2
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000x64 : Shape := ⟨2, ![50000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S2000x128 : Shape := ⟨2, ![2000, 128]⟩
abbrev S1x128 : Shape := ⟨2, ![1, 128]⟩
abbrev S2000x64 : Shape := ⟨2, ![2000, 64]⟩
abbrev S1x64 : Shape := ⟨2, ![1, 64]⟩

abbrev nBuf : Space → Nat
  | .hbm => 93
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000x64, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S50000, .i32⟩
  | .hbm, ⟨16, _⟩ => ⟨S850000, .i32⟩
  | .hbm, ⟨17, _⟩ => ⟨S850000, .i32⟩
  | .hbm, ⟨18, _⟩ => ⟨S_, .f32⟩
  | .hbm, ⟨19, _⟩ => ⟨S850000, .f32⟩
  | .hbm, ⟨20, _⟩ => ⟨S_, .f32⟩
  | .hbm, ⟨21, _⟩ => ⟨S50000, .f32⟩
  | .hbm, ⟨22, _⟩ => ⟨S850000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .i1⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000, .f32⟩
  | .hbm, ⟨53, _⟩ => ⟨S850000, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x128, .f32⟩
  | .hbm, ⟨63, _⟩ => ⟨S850000x1, .f32⟩
  | .hbm, ⟨64, _⟩ => ⟨S850000x128, .f32⟩
  | .hbm, ⟨65, _⟩ => ⟨S850000x128, .f32⟩
  | .hbm, ⟨66, _⟩ => ⟨S_, .f32⟩
  | .hbm, ⟨67, _⟩ => ⟨S50000x128, .f32⟩
  | .hbm, ⟨68, _⟩ => ⟨S850000x1, .i32⟩
  | .hbm, ⟨69, _⟩ => ⟨S50000x128, .f32⟩
  | .hbm, ⟨70, _⟩ => ⟨S50000x128, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x128, .f32⟩
  | .hbm, ⟨80, _⟩ => ⟨S850000x1, .f32⟩
  | .hbm, ⟨81, _⟩ => ⟨S850000x128, .f32⟩
  | .hbm, ⟨82, _⟩ => ⟨S850000x128, .f32⟩
  | .hbm, ⟨83, _⟩ => ⟨S_, .f32⟩
  | .hbm, ⟨84, _⟩ => ⟨S50000x128, .f32⟩
  | .hbm, ⟨85, _⟩ => ⟨S850000x1, .i32⟩
  | .hbm, ⟨86, _⟩ => ⟨S50000x128, .f32⟩
  | .hbm, ⟨87, _⟩ => ⟨S128x128, .f32⟩
  | .hbm, ⟨88, _⟩ => ⟨S128, .f32⟩
  | .hbm, ⟨89, _⟩ => ⟨S50000x128, .f32⟩
  | .hbm, ⟨90, _⟩ => ⟨S50000x64, .f32⟩
  | .hbm, ⟨91, _⟩ => ⟨S50000x64, .f32⟩
  | .hbm, ⟨92, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S128, .f32⟩
  | .local _ .vmem, ⟨10, _⟩ => ⟨S64x64, .f32⟩
  | .local _ .vmem, ⟨11, _⟩ => ⟨S64, .f32⟩
  | .local _ .vmem, ⟨12, _⟩ => ⟨S2000x64, .f32⟩
  | .local _ .vmem, ⟨13, _⟩ => ⟨S2000x64, .f32⟩
  | .local _ .vmem, ⟨14, _⟩ => ⟨S2000x128, .f32⟩
  | .local _ .vmem, ⟨15, _⟩ => ⟨S2000x128, .f32⟩
  | .local _ .vmem, ⟨16, _⟩ => ⟨S2000x64, .f32⟩
  | .local _ .vmem, ⟨17, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_7 : Ref sig .tc := ⟨.hbm, 54, rfl⟩
abbrev main_v32 : Ref sig .tc := ⟨.hbm, 55, rfl⟩
abbrev main_v33 : Ref sig .tc := ⟨.hbm, 56, rfl⟩
abbrev main_c_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_10 : Ref sig .tc := ⟨.hbm, 71, rfl⟩
abbrev main_v46 : Ref sig .tc := ⟨.hbm, 72, rfl⟩
abbrev main_v47 : Ref sig .tc := ⟨.hbm, 73, rfl⟩
abbrev main_c_11 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61_0 : Ref sig .tc := ⟨.hbm, 89, rfl⟩
abbrev main_v61_1 : Ref sig .tc := ⟨.hbm, 90, rfl⟩
abbrev main_v62 : Ref sig .tc := ⟨.hbm, 91, rfl⟩
abbrev main_v63 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem6_1 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  concatenates_S128x64_S128x64_S128x128_d1 : Shape.Concatenates [S128x64, S128x64] S128x128 1
  concatenates_S64_S64_S128_d0 : Shape.Concatenates [S64, S64] S128 0
  shapeCasts_S128x128_S128x128 : S128x128.ShapeCasts S128x128
  shapeCasts_S128_S128 : S128.ShapeCasts S128
  slices_S2000x128_o0_0_S2000x64 : S2000x128.Slices ![0, 0] S2000x64
  slices_S2000x128_o0_64_S2000x64 : S2000x128.Slices ![0, 64] S2000x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  inb_S2000x128_S2000x64_0_0 : ∀ a, (![0, 0] : Fin 2 → Nat) a + S2000x64.size a ≤ S2000x128.size a
  inb_S2000x128_S2000x64_0_64 : ∀ a, (![0, 64] : Fin 2 → Nat) a + S2000x64.size a ≤ S2000x128.size a
  slices_S50000x128_S50000x64_0_0 : S50000x128.Slices ![0, 0] S50000x64
  slices_S50000x128_S50000x64_0_64 : S50000x128.Slices ![0, 64] S50000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x128_S2000x128_1_0_0_1_n_n_wf : DotDims.WF S2000x128 S128x128 S2000x128 [1] [0] [0] [1] [] []
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x64.size a ≤ S50000x64.size a
  hwx1_7 : ∀ i : grid1.Coords, EltTy.bits .f32 = 32 ∨ (Rect.block (s := S50000x64) S2000x64.size (cc1_transform_7 i) (hinb1_7 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v44) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v58) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v59) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v60) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg2) S2000x64.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v61_0) S2000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v61_1) S2000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000x64 : Shape := ⟨2, ![50000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S850000x64 : Shape := ⟨2, ![850000, 64]⟩
abbrev S1x64 : Shape := ⟨2, ![1, 64]⟩

abbrev nBuf : Space → Nat
  | .hbm => 131
  | .vmem => 0
  | .smem => 0
  | _ => 0

abbrev hbmTy0_0 (i : Nat) : BufTy := match i % 128 with
  | 0 => ⟨S50000x128, .f32⟩
  | 1 => ⟨S2x800000, .i32⟩
  | 2 => ⟨S50000x64, .f32⟩
  | 3 => ⟨S128x128, .f32⟩
  | 4 => ⟨S128, .f32⟩
  | 5 => ⟨S128x64, .f32⟩
  | 6 => ⟨S64, .f32⟩
  | 7 => ⟨S128x64, .f32⟩
  | 8 => ⟨S64, .f32⟩
  | 9 => ⟨S64x64, .f32⟩
  | 10 => ⟨S64, .f32⟩
  | 11 => ⟨S1x800000, .i32⟩
  | 12 => ⟨S800000, .i32⟩
  | 13 => ⟨S1x800000, .i32⟩
  | 14 => ⟨S800000, .i32⟩
  | 15 => ⟨S50000, .i32⟩
  | 16 => ⟨S850000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S50000, .f32⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S850000, .f32⟩
  | 54 => ⟨S50000x128, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000x128, .f32⟩
  | 64 => ⟨S850000x1, .f32⟩
  | 65 => ⟨S850000x128, .f32⟩
  | 66 => ⟨S850000x128, .f32⟩
  | 67 => ⟨S_, .f32⟩
  | 68 => ⟨S50000x128, .f32⟩
  | 69 => ⟨S850000x1, .i32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S50000x64, .f32⟩
  | 78 => ⟨S_, .i32⟩
  | 79 => ⟨S850000, .i32⟩
  | 80 => ⟨S850000, .i1⟩
  | 81 => ⟨S_, .i32⟩
  | 82 => ⟨S850000, .i32⟩
  | 83 => ⟨S850000, .i32⟩
  | 84 => ⟨S850000, .i32⟩
  | 85 => ⟨S850000x1, .i32⟩
  | 86 => ⟨S850000x64, .f32⟩
  | 87 => ⟨S850000x1, .f32⟩
  | 88 => ⟨S850000x64, .f32⟩
  | 89 => ⟨S850000x64, .f32⟩
  | 90 => ⟨S_, .f32⟩
  | 91 => ⟨S50000x64, .f32⟩
  | 92 => ⟨S850000x1, .i32⟩
  | 93 => ⟨S50000x64, .f32⟩
  | 94 => ⟨S1x64, .f32⟩
  | 95 => ⟨S50000x64, .f32⟩
  | 96 => ⟨S50000x64, .f32⟩
  | 97 => ⟨S50000x64, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000x64, .f32⟩
  | 107 => ⟨S850000x1, .f32⟩
  | 108 => ⟨S850000x64, .f32⟩
  | 109 => ⟨S850000x64, .f32⟩
  | 110 => ⟨S_, .f32⟩
  | 111 => ⟨S50000x64, .f32⟩
  | 112 => ⟨S850000x1, .i32⟩
  | 113 => ⟨S50000x64, .f32⟩
  | 114 => ⟨S1x64, .f32⟩
  | 115 => ⟨S50000x64, .f32⟩
  | 116 => ⟨S50000x64, .f32⟩
  | 117 => ⟨S_, .f32⟩
  | 118 => ⟨S50000x64, .f32⟩
  | 119 => ⟨S50000x64, .f32⟩
  | 120 => ⟨S50000x64, .f32⟩
  | 121 => ⟨S1x64, .f32⟩
  | 122 => ⟨S50000x64, .f32⟩
  | 123 => ⟨S50000x64, .f32⟩
  | 124 => ⟨S50000x64, .f32⟩
  | 125 => ⟨S_, .f32⟩
  | 126 => ⟨S50000x64, .f32⟩
  | 127 => ⟨S50000x64, .f32⟩
  | _ => ⟨S50000x128, .f32⟩

abbrev hbmTy0_1 (i : Nat) : BufTy := match i % 128 with
  | 0 => ⟨S50000x64, .f32⟩
  | 1 => ⟨S50000x64, .f32⟩
  | 2 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_13 : Ref sig .tc := ⟨.hbm, 98, rfl⟩
abbrev main_v68 : Ref sig .tc := ⟨.hbm, 99, rfl⟩
abbrev main_v69 : Ref sig .tc := ⟨.hbm, 100, rfl⟩
abbrev main_c_14 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_15 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_call2_cst : Ref sig .tc := ⟨.hbm, 117, rfl⟩
abbrev main_call2_v0 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_16 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.LibRowScatter.lean ====
/-
  Rows gathered and rows accumulated, read at an index.

  A node-feature table `x : [N, D]` and a list of `E` node ids `idx : [E, 1]`.
  • The row gather `x[idx]` (offset axis 1, collapsed axis 0, one start-index component, slice `[1, D]`) at entry
    `(e, c)` is `x` at row `idx e` — the id read as a signed integer and clamped into `[0, N − 1]` — and column `c`.
  • The accumulating scatter of update rows `upd : [E, D]` into `x : [R, D]` along axis 0 (window axis 1, inserted
    axis 0), over the extended reals, at entry `(i, c)` is `x (i, c)` plus the sum, over the edges `e` whose id read
    as a signed integer IS `i`, of `upd (e, c)`: an id outside `[0, R)` meets no row and its update is dropped.
  • The same with scalar updates `upd : [E]` into `x : [R]` (a count per segment).
  All three are generic in the extents.
-/
import Idealize.ShloMosaic.PureOps.Ideal
import Idealize.ShloMosaic.Lib.ValueIdx

noncomputable section

open scoped BigOperators

namespace Idealize.ShloMosaic.RowScatter

open Idealize.ShloMosaic Idealize.ShloMosaic.ValueIdx

/-! ## The row gather -/

/-- The dimension numbers of `x[idx]` for `x : [N, D]`, `idx : [E, 1]`. -/
abbrev gatherRows (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row an id names in a table of `N` rows: read signed, clamped into `[0, N − 1]`. -/
def rowOf (N : Nat) (hN : 0 < N) {w : Nat} (i : BitVec w) : Fin N := ⟨min i.toInt.toNat (N - 1), by omega⟩

theorem gather_rows_apply {α : Type} {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (gatherRows N D E wf) x idx (ix2 e c) = x (ix2 (rowOf N hN (idx (ix2 e 0))) c) := by
  unfold Host.gather
  congr 1
  funext a
  refine Fin.ext ?_
  show (gatherRows N D E wf).start (ix2 e c) idx a + (gatherRows N D E wf).batchCoord (ix2 e c) a
    + (gatherRows N D E wf).offCoord (ix2 e c) a = _
  rw [GatherDims.batchCoord_eq_zero _ _ _ List.not_mem_nil, Nat.add_zero]
  match a with
  | ⟨0, h0⟩ =>
    rw [GatherDims.offCoord_eq_zero _ _ _ (fun h => ((GatherDims.mem_sKept _ _).mp h).1 (List.mem_singleton.mpr rfl)),
      Nat.add_zero]
    unfold GatherDims.start
    rw [dif_pos (show (⟨0, h0⟩ : Fin 2) ∈ (gatherRows N D E wf).startIndexMap from List.mem_singleton.mpr rfl)]
    have hsi : (gatherRows N D E wf).siIdx (ix2 e c) ⟨List.idxOf (⟨0, h0⟩ : Fin 2) (gatherRows N D E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, h1⟩ =>
    have hns : (⟨1, h1⟩ : Fin 2) ∉ (gatherRows N D E wf).startIndexMap := fun h =>
      absurd (congrArg Fin.val (List.mem_singleton.mp h)) (show ¬ ((1 : ℕ) = 0) by decide)
    unfold GatherDims.start
    rw [dif_neg hns, Nat.zero_add]
    unfold GatherDims.offCoord
    have hk : (⟨1, h1⟩ : Fin 2) ∈ (gatherRows N D E wf).sKept :=
      (GatherDims.mem_sKept _ _).mpr ⟨fun h => absurd (congrArg Fin.val (List.mem_singleton.mp h)) (show ¬ ((1 : ℕ) = 0) by decide),
        List.not_mem_nil⟩
    rw [dif_pos hk]
    rfl

/-! ## The accumulating row scatter -/

/-- The dimension numbers of `x.at[idx].add(upd)` along axis 0 for `x : [R, D]`, `idx : [E, 1]`, `upd : [E, D]`. -/
abbrev scatterRows (R D E : Nat) (wf : ScatterDims.WF ⟨2, ![R, D]⟩ ⟨2, ![E, 1]⟩ ⟨2, ![E, D]⟩ [1] [0] [0] 1) :
    ScatterDims ⟨2, ![R, D]⟩ ⟨2, ![E, 1]⟩ ⟨2, ![E, D]⟩ where
  updateWindowDims := [1]
  insertedWindowDims := [0]
  scatterDimsToOperandDims := [0]
  indexVectorDim := 1
  wf := wf

section Rows
variable {R D E w : Nat} (wf : ScatterDims.WF ⟨2, ![R, D]⟩ ⟨2, ![E, 1]⟩ ⟨2, ![E, D]⟩ [1] [0] [0] 1)
  (idx : IVec ⟨2, ![E, 1]⟩ w) (e : Fin E) (c : Fin D)

/-- On the row axis the window of update `(e, c)` starts at edge `e`'s id, read signed. -/
theorem scatterRows_start0 (h0 : 0 < 2) : (scatterRows R D E wf).start (ix2 e c) idx ⟨0, h0⟩ = (idx (ix2 e 0)).toInt := by
  unfold ScatterDims.start
  rw [dif_pos (show (⟨0, h0⟩ : Fin 2) ∈ (scatterRows R D E wf).scatterDimsToOperandDims from List.mem_singleton.mpr rfl)]
  have hsi : (scatterRows R D E wf).siIdx (ix2 e c) ⟨List.idxOf (⟨0, h0⟩ : Fin 2) (scatterRows R D E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis it starts at 0. -/
theorem scatterRows_start1 (h1 : 1 < 2) : (scatterRows R D E wf).start (ix2 e c) idx ⟨1, h1⟩ = 0 := by
  unfold ScatterDims.start
  rw [dif_neg (fun h => absurd (congrArg Fin.val (List.mem_singleton.mp h)) (show ¬ ((1 : ℕ) = 0) by decide))]

/-- The row axis is inserted: no window coordinate there. -/
theorem scatterRows_window0 (h0 : 0 < 2) : (scatterRows R D E wf).window (ix2 e c) ⟨0, h0⟩ = 0 := by
  unfold ScatterDims.window
  rw [dif_neg (fun h => (of_decide_eq_true (List.mem_filter.mp h).2) (List.mem_singleton.mpr rfl))]

/-- The column axis carries the update's column. -/
theorem scatterRows_window1 (h1 : 1 < 2) : (scatterRows R D E wf).window (ix2 e c) ⟨1, h1⟩ = c.val := by
  unfold ScatterDims.window
  have hk : (⟨1, h1⟩ : Fin 2) ∈ (scatterRows R D E wf).sKept :=
    List.mem_filter.mpr ⟨List.mem_finRange _, decide_eq_true (fun h =>
      absurd (congrArg Fin.val (List.mem_singleton.mp h)) (show ¬ ((1 : ℕ) = 0) by decide))⟩
  rw [dif_pos hk]
  rfl

/-- Update `(e, c)` lands on entry `(i, c')` exactly when edge `e`'s id, read signed, is `i` and the columns agree. -/
theorem scatterRows_resultIdx_iff (i : Fin R) (c' : Fin D) :
    (scatterRows R D E wf).resultIdx? (ix2 e c) idx = some (ix2 i c') ↔ (idx (ix2 e 0)).toInt = (i.val : ℤ) ∧ c = c' := by
  unfold ScatterDims.resultIdx?
  constructor
  · intro h
    split at h
    · next hall =>
      have h' := Option.some.inj h
      have e0 := congrArg (fun f => (f ⟨0, Nat.zero_lt_two⟩ : Fin _).val) h'
      have e1 := congrArg (fun f => (f ⟨1, Nat.one_lt_two⟩ : Fin _).val) h'
      simp only [scatterRows_start0, scatterRows_start1, scatterRows_window0, scatterRows_window1] at e0 e1
      have b0 := hall ⟨0, Nat.zero_lt_two⟩
      simp only [scatterRows_start0, scatterRows_window0] at b0
      refine ⟨?_, Fin.ext ?_⟩
      · have : ((idx (ix2 e 0)).toInt + ((0 : ℕ) : ℤ)).toNat = i.val := e0
        omega
      · have : ((0 : ℤ) + (c.val : ℤ)).toNat = c'.val := e1
        omega
    · exact absurd h (by simp)
  · rintro ⟨hi, rfl⟩
    have hall : ∀ a : Fin 2, 0 ≤ (scatterRows R D E wf).start (ix2 e c) idx a + (scatterRows R D E wf).window (ix2 e c) a
        ∧ (scatterRows R D E wf).start (ix2 e c) idx a + (scatterRows R D E wf).window (ix2 e c) a < (⟨2, ![R, D]⟩ : Shape).size a := by
      intro a
      match a with
      | ⟨0, h0⟩ =>
        rw [scatterRows_start0, scatterRows_window0, hi]
        have := i.isLt
        refine ⟨by omega, ?_⟩
        show (i.val : ℤ) + ((0 : ℕ) : ℤ) < (R : ℤ)
        omega
      | ⟨1, h1⟩ =>
        rw [scatterRows_start1, scatterRows_window1]
        have := c.isLt
        refine ⟨by omega, ?_⟩
        show (0 : ℤ) + (c.val : ℤ) < (D : ℤ)
        omega
    rw [dif_pos hall]
    congr 1
    funext a
    refine Fin.ext ?_
    match a with
    | ⟨0, h0⟩ =>
      show ((scatterRows R D E wf).start (ix2 e c) idx ⟨0, h0⟩ + (scatterRows R D E wf).window (ix2 e c) ⟨0, h0⟩).toNat = i.val
      rw [scatterRows_start0, scatterRows_window0, hi]; omega
    | ⟨1, h1⟩ =>
      show ((scatterRows R D E wf).start (ix2 e c) idx ⟨1, h1⟩ + (scatterRows R D E wf).window (ix2 e c) ⟨1, h1⟩).toNat = c.val
      rw [scatterRows_start1, scatterRows_window1]; omega

end Rows

/-- THE ACCUMULATING ROW SCATTER READ AT `(i, c)`, over the extended reals: the operand's entry plus the sum over the
    edges whose id, read signed, is `i` of the update row's entry in column `c`. -/
theorem scatterAdd_rows_apply {R D E w : Nat} (wf : ScatterDims.WF ⟨2, ![R, D]⟩ ⟨2, ![E, 1]⟩ ⟨2, ![E, D]⟩ [1] [0] [0] 1)
    (x : (⟨2, ![R, D]⟩ : Shape).Idx → EReal) (idx : IVec ⟨2, ![E, 1]⟩ w) (upd : (⟨2, ![E, D]⟩ : Shape).Idx → EReal)
    (i : Fin R) (c : Fin D) :
    Ideal.hostScatterAdd (scatterRows R D E wf) x idx upd (ix2 i c)
      = x (ix2 i c) + ∑ e : Fin E, if (idx (ix2 e 0)).toInt = (i.val : ℤ) then upd (ix2 e c) else 0 := by
  unfold Ideal.hostScatterAdd
  congr 1
  rw [Finset.sum_filter, sum_idx2]
  refine Finset.sum_congr rfl fun e _ => ?_
  simp only [scatterRows_resultIdx_iff]
  by_cases he : (idx (ix2 e 0)).toInt = (i.val : ℤ)
  · simp only [he, true_and, if_true]
    rw [Finset.sum_ite_eq' Finset.univ c (fun c' => upd (ix2 e c'))]
    simp
  · simp only [he, false_and, if_false, Finset.sum_const_zero]

/-! ## The accumulating scatter of scalars (a count per segment) -/

/-- The dimension numbers of `x.at[idx].add(upd)` for `x : [R]`, `idx : [E, 1]`, `upd : [E]`. -/
abbrev scatterSegs (R E : Nat) (wf : ScatterDims.WF ⟨1, ![R]⟩ ⟨2, ![E, 1]⟩ ⟨1, ![E]⟩ [] [0] [0] 1) :
    ScatterDims ⟨1, ![R]⟩ ⟨2, ![E, 1]⟩ ⟨1, ![E]⟩ where
  updateWindowDims := []
  insertedWindowDims := [0]
  scatterDimsToOperandDims := [0]
  indexVectorDim := 1
  wf := wf

section Segs
variable {R E w : Nat} (wf : ScatterDims.WF ⟨1, ![R]⟩ ⟨2, ![E, 1]⟩ ⟨1, ![E]⟩ [] [0] [0] 1)
  (idx : IVec ⟨2, ![E, 1]⟩ w) (e : Fin E)

theorem scatterSegs_start0 (h0 : 0 < 1) : (scatterSegs R E wf).start (ix1 e) idx ⟨0, h0⟩ = (idx (ix2 e 0)).toInt := by
  unfold ScatterDims.start
  rw [dif_pos (show (⟨0, h0⟩ : Fin 1) ∈ (scatterSegs R E wf).scatterDimsToOperandDims from List.mem_singleton.mpr rfl)]
  have hsi : (scatterSegs R E wf).siIdx (ix1 e) ⟨List.idxOf (⟨0, h0⟩ : Fin 1) (scatterSegs R E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem scatterSegs_window0 (h0 : 0 < 1) : (scatterSegs R E wf).window (ix1 e) ⟨0, h0⟩ = 0 := by
  unfold ScatterDims.window
  rw [dif_neg (fun h => (of_decide_eq_true (List.mem_filter.mp h).2) (List.mem_singleton.mpr rfl))]

/-- Update `e` lands on segment `i` exactly when edge `e`'s id, read signed, is `i`. -/
theorem scatterSegs_resultIdx_iff (i : Fin R) :
    (scatterSegs R E wf).resultIdx? (ix1 e) idx = some (ix1 i) ↔ (idx (ix2 e 0)).toInt = (i.val : ℤ) := by
  unfold ScatterDims.resultIdx?
  constructor
  · intro h
    split at h
    · next hall =>
      have h' := Option.some.inj h
      have e0 := congrArg (fun f => (f ⟨0, Nat.zero_lt_one⟩ : Fin _).val) h'
      simp only [scatterSegs_start0, scatterSegs_window0] at e0
      have b0 := hall ⟨0, Nat.zero_lt_one⟩
      simp only [scatterSegs_start0, scatterSegs_window0] at b0
      have : ((idx (ix2 e 0)).toInt + ((0 : ℕ) : ℤ)).toNat = i.val := e0
      omega
    · exact absurd h (by simp)
  · intro hi
    have hall : ∀ a : Fin 1, 0 ≤ (scatterSegs R E wf).start (ix1 e) idx a + (scatterSegs R E wf).window (ix1 e) a
        ∧ (scatterSegs R E wf).start (ix1 e) idx a + (scatterSegs R E wf).window (ix1 e) a < (⟨1, ![R]⟩ : Shape).size a := by
      intro a
      match a with
      | ⟨0, h0⟩ =>
        rw [scatterSegs_start0, scatterSegs_window0, hi]
        have := i.isLt
        refine ⟨by omega, ?_⟩
        show (i.val : ℤ) + ((0 : ℕ) : ℤ) < (R : ℤ)
        omega
    rw [dif_pos hall]
    congr 1
    funext a
    refine Fin.ext ?_
    match a with
    | ⟨0, h0⟩ =>
      show ((scatterSegs R E wf).start (ix1 e) idx ⟨0, h0⟩ + (scatterSegs R E wf).window (ix1 e) ⟨0, h0⟩).toNat = i.val
      rw [scatterSegs_start0, scatterSegs_window0, hi]; omega

end Segs

/-- A rank-1 index set is its coordinate range, so a sum over it is the sum over the coordinate. -/
theorem sum_idx1 {M : Type*} [AddCommMonoid M] {n : Nat} (f : (⟨1, ![n]⟩ : Shape).Idx → M) :
    ∑ i, f i = ∑ a : Fin n, f (ix1 a) := by
  refine (Fintype.sum_equiv (⟨fun i => i 0, fun a => ix1 a, fun i => (eq_ix1 i).symm, fun _ => rfl⟩ :
    (⟨1, ![n]⟩ : Shape).Idx ≃ Fin n) _ _ fun i => congrArg f (eq_ix1 i))

/-- THE ACCUMULATING SCALAR SCATTER READ AT SEGMENT `i`, over the extended reals: the operand's entry plus the sum over
    the edges whose id, read signed, is `i` of the update's entry. -/
theorem scatterAdd_segs_apply {R E w : Nat} (wf : ScatterDims.WF ⟨1, ![R]⟩ ⟨2, ![E, 1]⟩ ⟨1, ![E]⟩ [] [0] [0] 1)
    (x : (⟨1, ![R]⟩ : Shape).Idx → EReal) (idx : IVec ⟨2, ![E, 1]⟩ w) (upd : (⟨1, ![E]⟩ : Shape).Idx → EReal) (i : Fin R) :
    Ideal.hostScatterAdd (scatterSegs R E wf) x idx upd (ix1 i)
      = x (ix1 i) + ∑ e : Fin E, if (idx (ix2 e 0)).toInt = (i.val : ℤ) then upd (ix1 e) else 0 := by
  unfold Ideal.hostScatterAdd
  congr 1
  rw [Finset.sum_filter, sum_idx1]
  refine Finset.sum_congr rfl fun e _ => ?_
  simp only [scatterSegs_resultIdx_iff]

end Idealize.ShloMosaic.RowScatter

end
-- ==== Proof.RealAlg.lean ====
/-
  Finite extended reals, and the one law that joins the two programs.

  An extended real is FINITE when it is (the image of) a real number. Finite values are closed under sums, products,
  maxima and finite sums, and on finite values the extended reals' arithmetic is the reals', where multiplication
  distributes over addition.

  The law: a node table is AGGREGATED over an edge list by adding, into each row, the rows its incoming edges name, each
  scaled by its edge's weight. Multiplying the aggregated table by a matrix on the right is the same as aggregating the
  table already multiplied: for a fixed output row (membership `p e` of edge `e`) and output column (the matrix column
  `W`),
    Σ_k (0 + Σ_{e ∈ p} g e k · n e) · W k  =  0 + Σ_{e ∈ p} (Σ_k g e k · W k) · n e,
  where `g e k` is the gathered row of edge `e` and `n e` its weight — provided all of them are finite.
-/
import Mathlib.Data.EReal.Inv
import Mathlib.Algebra.BigOperators.Group.Finset.Basic
import Mathlib.Algebra.BigOperators.Ring.Finset
import Mathlib.Tactic.Ring

noncomputable section

open scoped BigOperators

namespace EdgeAgg

/-- An extended real that is a real number. -/
def Fin' (x : EReal) : Prop := ∃ r : ℝ, x = (r : EReal)

theorem Fin'.zero : Fin' (0 : EReal) := ⟨0, rfl⟩
theorem Fin'.coe (r : ℝ) : Fin' (r : EReal) := ⟨r, rfl⟩
theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.max {x y : EReal} (hx : Fin' x) (hy : Fin' y) : Fin' (max x y) := by
  rcases max_choice x y with h | h <;> rw [h] <;> assumption
theorem Fin'.ite {p : Prop} [Decidable p] {x y : EReal} (hx : Fin' x) (hy : Fin' y) : Fin' (if p then x else y) := by
  split <;> assumption

/-- A finite sum of real numbers, taken in the extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Fin'.sum {ι : Type*} (s : Finset ι) (f : ι → EReal) (hf : ∀ i ∈ s, Fin' (f i)) : Fin' (∑ i ∈ s, f i) := by
  classical
  induction s using Finset.induction_on with
  | empty => simpa using Fin'.zero
  | insert a s ha ih =>
    rw [Finset.sum_insert ha]
    exact (hf a (Finset.mem_insert_self a s)).add (ih fun i hi => hf i (Finset.mem_insert_of_mem hi))

/-- THE LAW (one output row, one output column). -/
theorem agg_mul_eq {E K : Type*} [Fintype E] [Fintype K] (p : E → Prop) [DecidablePred p]
    (g : E → K → EReal) (n : E → EReal) (W : K → EReal)
    (hg : ∀ e k, Fin' (g e k)) (hn : ∀ e, Fin' (n e)) (hW : ∀ k, Fin' (W k)) :
    ∑ k, (0 + ∑ e, if p e then g e k * n e else 0) * W k
      = 0 + ∑ e, if p e then (∑ k, g e k * W k) * n e else 0 := by
  classical
  choose g' hg' using hg
  choose n' hn' using hn
  choose W' hW' using hW
  have hL : ∀ k, (0 + ∑ e, if p e then g e k * n e else 0) * W k
      = (((0 + ∑ e, if p e then g' e k * n' e else 0) * W' k : ℝ) : EReal) := by
    intro k
    rw [EReal.coe_mul, EReal.coe_add, EReal.coe_zero, coe_sum, hW']
    congr 2
    refine Finset.sum_congr rfl fun e _ => ?_
    by_cases h : p e
    · simp only [h, if_true, hg', hn', EReal.coe_mul]
    · simp only [h, if_false, EReal.coe_zero]
  have hR : ∀ e, (if p e then (∑ k, g e k * W k) * n e else 0)
      = (((if p e then (∑ k, g' e k * W' k) * n' e else 0) : ℝ) : EReal) := by
    intro e
    by_cases h : p e
    · simp only [h, if_true, EReal.coe_mul, coe_sum, hg', hn', hW']
    · simp only [h, if_false, EReal.coe_zero]
  rw [Finset.sum_congr rfl fun k _ => hL k, Finset.sum_congr rfl fun e _ => hR e, ← coe_sum, ← coe_sum,
    ← EReal.coe_zero, ← EReal.coe_add]
  congr 1
  simp only [zero_add, Finset.sum_mul]
  rw [Finset.sum_comm]
  refine Finset.sum_congr rfl fun e _ => ?_
  by_cases h : p e
  · simp only [h, if_true, Finset.sum_mul]
    refine Finset.sum_congr rfl fun k _ => by ring
  · simp only [h, if_false, zero_mul, Finset.sum_const_zero]

end EdgeAgg

end
-- ==== Proof.Spec.lean ====
/-
  The two programs as plain functions over the extended reals, and why they agree.

  Vocabulary (all index by index, over the extended reals):
  • `agg f` — a node table `f : [N, D]` AGGREGATED over the edge list: row `r` is `0` plus the sum, over the edges whose
    target id is `r`, of the row of `f` the edge's source id names (read signed, clamped into the table) times the edge's
    weight. An edge whose target id is no row is dropped.
  • `mm X W` — a matrix product, `addRow Y b` — a bias row added to every row, `relu`.
  • the KERNEL: `hid = relu ((agg x)·W1 + b1)`, then with `A = agg hid` the 128-wide block `out = A·[Wm | Wv] + [bm | bv]`;
    `mean` is its left half, `logvar = tanh (relu (right half)·Wl + bl)`, `z = noise · exp (½ · logvar) + mean`.
  • the REFERENCE: `hid = relu (agg (x·W1) + b1)`, `mean = agg (hid·Wm) + bm`,
    `logvar = tanh (relu (agg (hid·Wv) + bv)·Wl + bl)`, `z = noise · exp (½ · logvar) + mean`.
  They differ only in WHEN the matrix is applied: before or after the aggregation. Aggregation is linear, so
  `(agg f)·W = agg (f·W)` — on FINITE entries, where multiplication distributes over addition (RealAlg.lean). The inputs
  are finite by the precondition, the edge weights by their construction, and `hid` because it is built from finite
  values by sums, products and a maximum.
-/
import Idealize.ShloMosaic.PureOps.Ideal
import Idealize.ShloMosaic.Lib.ValueIdx
import proofs.«419545_j24842090840532_3_alg».proof.Proof.LibRowScatter
import proofs.«419545_j24842090840532_3_alg».proof.Proof.RealAlg

noncomputable section

open scoped BigOperators

namespace Gcn

open Idealize.ShloMosaic Idealize.ShloMosaic.ValueIdx Idealize.ShloMosaic.RowScatter EdgeAgg

/-! ## Vocabulary -/

/-- The left half's column `j` of a 128-wide block. -/
def lo (j : Fin 64) : Fin 128 := ⟨j.val, by omega⟩
/-- The right half's column `j` of a 128-wide block. -/
def hi (j : Fin 64) : Fin 128 := ⟨64 + j.val, by omega⟩

/-- A matrix product. -/
def mm {M K J : Nat} (X : (⟨2, ![M, K]⟩ : Shape).Idx → EReal) (W : (⟨2, ![K, J]⟩ : Shape).Idx → EReal) :
    (⟨2, ![M, J]⟩ : Shape).Idx → EReal :=
  fun i => ∑ k : Fin K, X (ix2 (i 0) k) * W (ix2 k (i 1))

/-- A bias row added to every row. -/
def addRow {M J : Nat} (Y : (⟨2, ![M, J]⟩ : Shape).Idx → EReal) (b : (⟨1, ![J]⟩ : Shape).Idx → EReal) :
    (⟨2, ![M, J]⟩ : Shape).Idx → EReal :=
  fun i => Y i + b (ix1 (i 1))

/-- The positive part. -/
def relu {S : Shape} (Y : S.Idx → EReal) : S.Idx → EReal := fun i => max (Y i) 0

/-- Two 64-column matrices side by side. -/
def catCols {K : Nat} (A B : (⟨2, ![K, 64]⟩ : Shape).Idx → EReal) : (⟨2, ![K, 128]⟩ : Shape).Idx → EReal :=
  fun i => if h : (i 1).val < 64 then A (ix2 (i 0) ⟨(i 1).val, h⟩)
    else B (ix2 (i 0) ⟨(i 1).val - 64, by have := idx2_lt1 i; omega⟩)

/-- Two 64-vectors end to end. -/
def cat (a b : (⟨1, ![64]⟩ : Shape).Idx → EReal) : (⟨1, ![128]⟩ : Shape).Idx → EReal :=
  fun i => if h : (i 0).val < 64 then a (ix1 ⟨(i 0).val, h⟩)
    else b (ix1 ⟨(i 0).val - 64, by have : (i 0).val < 128 := (i 0).isLt; omega⟩)

/-- The literal `0.5`. -/
def half : EReal := Ideal.ofBits .f32 0x3F000000#32

/-! ## The first region: a dense layer with relu -/

/-- `relu (X·W + b)`. -/
def hid0 {M : Nat} (X : (⟨2, ![M, 128]⟩ : Shape).Idx → EReal) (W : (⟨2, ![128, 128]⟩ : Shape).Idx → EReal)
    (b : (⟨1, ![128]⟩ : Shape).Idx → EReal) : (⟨2, ![M, 128]⟩ : Shape).Idx → EReal :=
  relu (addRow (mm X W) b)

/-! ## The second region: the fused projection, tanh layer and reparameterisation -/

section Region1
variable {M : Nat} (A : (⟨2, ![M, 128]⟩ : Shape).Idx → EReal) (Wmv : (⟨2, ![128, 128]⟩ : Shape).Idx → EReal)
  (bmv : (⟨1, ![128]⟩ : Shape).Idx → EReal) (Wl : (⟨2, ![64, 64]⟩ : Shape).Idx → EReal)
  (bl : (⟨1, ![64]⟩ : Shape).Idx → EReal) (noise : (⟨2, ![M, 64]⟩ : Shape).Idx → EReal)

/-- The 128-wide projection `A·Wmv + bmv`. -/
def out1 : (⟨2, ![M, 128]⟩ : Shape).Idx → EReal := addRow (mm A Wmv) bmv

/-- `tanh (relu (right half of out1)·Wl + bl)`. -/
def lv1 : (⟨2, ![M, 64]⟩ : Shape).Idx → EReal :=
  fun i => Ideal.tanh ((∑ k : Fin 64, max (out1 A Wmv bmv (ix2 (i 0) (hi k))) 0 * Wl (ix2 k (i 1))) + bl (ix1 (i 1)))

/-- The first output array: the projection's left half beside `lv1`. -/
def mlv1 : (⟨2, ![M, 128]⟩ : Shape).Idx → EReal :=
  fun i => if (i 1).val < 64 then out1 A Wmv bmv i
    else lv1 A Wmv bmv Wl bl (ix2 (i 0) ⟨(i 1).val - 64, by have := idx2_lt1 i; omega⟩)

/-- The second output array: `noise · exp (½ · lv1) + (left half of out1)`. -/
def z1 : (⟨2, ![M, 64]⟩ : Shape).Idx → EReal :=
  fun i => noise i * Ideal.exp (half * lv1 A Wmv bmv Wl bl i) + out1 A Wmv bmv (ix2 (i 0) (lo (i 1)))

end Region1

/-! ## Aggregation over the edge list -/

section Agg
variable {N E : Nat} (hN : 0 < N) (srcI dstI : IVec ⟨2, ![E, 1]⟩ 32) (nrm : (⟨1, ![E]⟩ : Shape).Idx → EReal)

/-- Row `r`, column `j` of the aggregated table. -/
def aggAt {D : Nat} (f : (⟨2, ![N, D]⟩ : Shape).Idx → EReal) (r : Fin N) (j : Fin D) : EReal :=
  0 + ∑ e : Fin E, if (dstI (ix2 e 0)).toInt = (r.val : ℤ)
    then f (ix2 (rowOf N hN (srcI (ix2 e 0))) j) * nrm (ix1 e) else 0

/-- The aggregated table. -/
def agg {D : Nat} (f : (⟨2, ![N, D]⟩ : Shape).Idx → EReal) : (⟨2, ![N, D]⟩ : Shape).Idx → EReal :=
  fun i => aggAt hN srcI dstI nrm f (i 0) (i 1)

/-! ## The two programs -/

variable (x : (⟨2, ![N, 128]⟩ : Shape).Idx → EReal) (noise : (⟨2, ![N, 64]⟩ : Shape).Idx → EReal)
  (W1 : (⟨2, ![128, 128]⟩ : Shape).Idx → EReal) (b1 : (⟨1, ![128]⟩ : Shape).Idx → EReal)
  (Wm : (⟨2, ![128, 64]⟩ : Shape).Idx → EReal) (bm : (⟨1, ![64]⟩ : Shape).Idx → EReal)
  (Wv : (⟨2, ![128, 64]⟩ : Shape).Idx → EReal) (bv : (⟨1, ![64]⟩ : Shape).Idx → EReal)
  (Wl : (⟨2, ![64, 64]⟩ : Shape).Idx → EReal) (bl : (⟨1, ![64]⟩ : Shape).Idx → EReal)

/-- The kernel's hidden layer. -/
def hidK : (⟨2, ![N, 128]⟩ : Shape).Idx → EReal := hid0 (agg hN srcI dstI nrm x) W1 b1
/-- The kernel's second aggregation. -/
def aggHidK : (⟨2, ![N, 128]⟩ : Shape).Idx → EReal := agg hN srcI dstI nrm (hidK hN srcI dstI nrm x W1 b1)
/-- The kernel's three results. -/
def meanK : (⟨2, ![N, 64]⟩ : Shape).Idx → EReal :=
  fun i => mlv1 (aggHidK hN srcI dstI nrm x W1 b1) (catCols Wm Wv) (cat bm bv) Wl bl (ix2 (i 0) (lo (i 1)))
def logvarK : (⟨2, ![N, 64]⟩ : Shape).Idx → EReal :=
  fun i => mlv1 (aggHidK hN srcI dstI nrm x W1 b1) (catCols Wm Wv) (cat bm bv) Wl bl (ix2 (i 0) (hi (i 1)))
def zK : (⟨2, ![N, 64]⟩ : Shape).Idx → EReal :=
  z1 (aggHidK hN srcI dstI nrm x W1 b1) (catCols Wm Wv) (cat bm bv) Wl bl noise

/-- The reference's hidden layer. -/
def hidR : (⟨2, ![N, 128]⟩ : Shape).Idx → EReal := relu (addRow (agg hN srcI dstI nrm (mm x W1)) b1)
/-- The reference's three results. -/
def meanR : (⟨2, ![N, 64]⟩ : Shape).Idx → EReal :=
  addRow (agg hN srcI dstI nrm (mm (hidR hN srcI dstI nrm x W1 b1) Wm)) bm
def logvarR : (⟨2, ![N, 64]⟩ : Shape).Idx → EReal :=
  fun i => Ideal.tanh ((∑ k : Fin 64,
      max (addRow (agg hN srcI dstI nrm (mm (hidR hN srcI dstI nrm x W1 b1) Wv)) bv (ix2 (i 0) k)) 0 * Wl (ix2 k (i 1)))
    + bl (ix1 (i 1)))
def zR : (⟨2, ![N, 64]⟩ : Shape).Idx → EReal :=
  fun i => noise i * Ideal.exp (half * logvarR hN srcI dstI nrm x W1 b1 Wv bv Wl bl i)
    + meanR hN srcI dstI nrm x W1 b1 Wm bm i

end Agg

end Gcn

end
-- ==== Proof.EdgeData.lean ====
/-
  The edge list as both programs read it.

  `edge_index : i32[2, 800000]` holds a source row and a target row per edge. Both programs append one self-loop per
  node (the ids 0 … 49999) to each row, giving 850000 edges, and then use three things only:
  • the SOURCE ids, negative ids wrapped by the node count, as a column `[850000, 1]` of start indices for a row gather;
  • the TARGET ids as a column `[850000, 1]` of scatter indices;
  • the per-edge WEIGHT `dinv[src] · dinv[dst]`, where `dinv = where(deg > 0, 1 / sqrt(deg), 0)` and `deg` counts, per
    node, the edges whose target it is (an accumulating scatter of ones into zeros).
  They are spelt here once, for any float instance, over a bundle of the shape side conditions the operations carry, so
  that either program's own spelling is this one up to those (proof-irrelevant) conditions.

  The weight is FINITE on every edge: `deg` is a finite sum of ones, hence a real number; where it is positive its square
  root is a positive real and `1 / sqrt(deg)` a real; elsewhere `dinv` is 0; a gather only picks entries of `dinv`.
-/
import Idealize.ShloMosaic.PureOps.Ideal
import Idealize.ShloMosaic.PureOps.Ideal.Laws
import Idealize.ShloMosaic.Lib.ValueIdx
import proofs.«419545_j24842090840532_3_alg».proof.Proof.LibRowScatter
import proofs.«419545_j24842090840532_3_alg».proof.Proof.RealAlg

noncomputable section

open scoped BigOperators

namespace Gcn

open Idealize.ShloMosaic Idealize.ShloMosaic.ValueIdx Idealize.ShloMosaic.RowScatter EdgeAgg

abbrev SEi : Shape := ⟨2, ![2, 800000]⟩
abbrev S1E : Shape := ⟨2, ![1, 800000]⟩
abbrev SE0 : Shape := ⟨1, ![800000]⟩
abbrev SN : Shape := ⟨1, ![50000]⟩
abbrev SE : Shape := ⟨1, ![850000]⟩
abbrev SE1 : Shape := ⟨2, ![850000, 1]⟩
abbrev S0 : Shape := ⟨0, ![]⟩

/-- The side conditions of the operations that read the edge list. -/
structure Wit : Prop where
  sl0 : SEi.Slices ![0, 0] S1E
  sl1 : SEi.Slices ![1, 0] S1E
  sc : S1E.ShapeCasts SE0
  cc : Shape.Concatenates [SE0, SN] SE 0
  bE : S0.BroadcastsInDim SE (![] : Fin 0 → Fin SE.rank)
  bN : S0.BroadcastsInDim SN (![] : Fin 0 → Fin SN.rank)
  bE1 : SE.BroadcastsInDim SE1 (![0] : Fin 1 → Fin SE1.rank)
  swf : ScatterDims.WF SN SE1 SE [] [0] [0] 1
  gwf : GatherDims.WF SN SE1 SE [] [0] [] [0] [] 1 ![1]

/-- The dimension numbers of the rank-1 gather `dinv[ids]`. -/
abbrev gatherSegs (gwf : GatherDims.WF SN SE1 SE [] [0] [] [0] [] 1 ![1]) : GatherDims SN SE1 SE where
  offsetDims := []
  collapsedSliceDims := [0]
  operandBatchingDims := []
  startIndicesBatchingDims := []
  startIndexMap := [0]
  indexVectorDim := 1
  sliceSizes := ![1]
  wf := gwf

section
variable {F : FTy → Type} [FloatOps F] (w : Wit) (ei : IVec SEi 32)

/-- Row `k` of the edge list with the self-loops appended. -/
def idsRow0 : IVec SE 32 :=
  concatenate SE 0 [⟨SE0, shapeCast _ (extractStridedSlice S1E ![0, 0] ei w.sl0) w.sc⟩, ⟨SN, iotaInDim SN 32 0⟩] w.cc
def idsRow1 : IVec SE 32 :=
  concatenate SE 0 [⟨SE0, shapeCast _ (extractStridedSlice S1E ![1, 0] ei w.sl1) w.sc⟩, ⟨SN, iotaInDim SN 32 0⟩] w.cc

/-- An id row with negative ids wrapped by the node count, as a column of start indices. -/
def wrapCol (ids : IVec SE 32) : IVec SE1 32 :=
  broadcastInDim SE1 ![0] w.bE1
    (select (cmpi .slt ids (broadcastInDim SE ![] w.bE (constantI S0 32 0#32)))
      (addi ids (broadcastInDim SE ![] w.bE (constantI S0 32 50000#32))) ids)

/-- The source ids as gather start indices. -/
def srcIdx : IVec SE1 32 := wrapCol w (idsRow0 w ei)
/-- The target ids as scatter indices (unwrapped). -/
def dstIdx : IVec SE1 32 := broadcastInDim SE1 ![0] w.bE1 (idsRow1 w ei)

/-- The in-degree with self-loops: ones accumulated into zeros at the target ids. -/
def deg : FVec F SN .f32 :=
  Host.scatterAdd (scatterSegs 50000 850000 w.swf) (broadcastInDim SN ![] w.bN (constant S0 .f32 0x00000000#32))
    (dstIdx w ei) (broadcastInDim SE ![] w.bE (constant S0 .f32 0x3F800000#32))

/-- `where(deg > 0, 1 / sqrt(deg), 0)`. -/
def dinv : FVec F SN .f32 :=
  select (cmpf .ogt (deg (F := F) w ei) (broadcastInDim SN ![] w.bN (constant S0 .f32 0x00000000#32)))
    (Host.divf (broadcastInDim SN ![] w.bN (constant S0 .f32 0x3F800000#32)) (Host.sqrt (deg (F := F) w ei)))
    (broadcastInDim SN ![] w.bN (id (constant S0 .f32 0x00000000#32)))

/-- The per-edge weight `dinv[src] · dinv[dst]`. -/
def nrm : FVec F SE .f32 :=
  mulf (Host.gather (gatherSegs w.gwf) (dinv (F := F) w ei) (srcIdx w ei))
    (Host.gather (gatherSegs w.gwf) (dinv (F := F) w ei) (wrapCol w (idsRow1 w ei)))

end

end Gcn

end
-- ==== Proof.KHost.lean ====
/-
  The kernel program's host operations, read at the buffers its regions and its results use.

  Between launch and return the program's contents pass seven boundaries: three stretches of host operations, the first
  region, one stretch, the second region, a last stretch. Read at one buffer each:
  • at the first region's entry its first input is the AGGREGATION of the features — rows gathered at the source ids, each
    scaled by its edge's weight, accumulated into zeros at the target ids — with the three edge-list readings folded into
    the definitions both programs share; the weight and bias inputs are the arguments, which no operation writes;
  • at the second region's entry its first input is the same aggregation of the first region's output, its second and third
    are the two projection matrices side by side and the two biases end to end, the rest are arguments;
  • at the return two results are the left and right column halves of the second region's first output and the third is
    its second output.
  A stretch is read over an arbitrary starting valuation, so that each equation compares short terms; a buffer a stretch
  does not write keeps its contents.
-/
import proofs.«419545_j24842090840532_3_alg».proof.Proof.Gen.KernelIdeal.Frame
import proofs.«419545_j24842090840532_3_alg».proof.Proof.Spec
import proofs.«419545_j24842090840532_3_alg».proof.Proof.EdgeData
import Idealize.ShloMosaic.Lib.StableHlo.Run
import Idealize.ShloMosaic.Lib.Pipeline.Value
import Idealize.ShloMosaic.Lib.ValueIdx

noncomputable section

open scoped BigOperators

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx

/-- The side conditions of the operations that read the edge list, from this program's stated facts. -/
theorem wK : Gcn.Wit :=
  ⟨slices_S2x800000_S1x800000_0_0, slices_S2x800000_S1x800000_1_0, shapeCasts_S1x800000_S800000,
    concatenates_S800000_S50000_S850000_d0, bcast_S_S850000, bcast_S_S50000, bcast_S850000_S850000x1_0,
    scatter_S50000_S850000x1_S850000_n_0_0_1_wf, gather_S50000_S850000x1_S850000_n_0_n_n_0_1_1_wf⟩

/-! ## Reading a stretch of host operations

The contents of a buffer after a stretch, over an ARBITRARY starting valuation `V`: every operand the stretch does not
itself compute appears as `V` at its buffer, so each equation below compares short terms. -/

section HostReads

/-- A concatenation depends on its operand list only: equal lists give equal results (the side condition follows). -/
theorem concatenate_congr_list {α : Type} {t : Shape} {a : Fin t.rank} {xs xs' : List ((s : Shape) × (s.Idx → α))}
    (e : xs = xs') (h : Shape.Concatenates (xs.map (·.1)) t a) :
    concatenate t a xs h = concatenate t a xs' (e ▸ h) := by
  subst e; rfl

attribute [local congr] concatenate_congr_list

/-- The per-edge weight from two id rows and a table `d`: `d[wrap ids0] · d[wrap ids1]`. -/
abbrev nrmOf (ids0 ids1 : IVec Gcn.SE 32) (d : FVec Ideal Gcn.SN .f32) : FVec Ideal Gcn.SE .f32 :=
  mulf (Host.gather (Gcn.gatherSegs wK.gwf) d (Gcn.wrapCol wK ids0))
    (Host.gather (Gcn.gatherSegs wK.gwf) d (Gcn.wrapCol wK ids1))

/-- The aggregation of a table `f` from two id rows and per-edge weights: rows of `f` gathered at the wrapped source
    ids, scaled by the weights, accumulated into zeros at the target ids. -/
abbrev aggOf (ids0 ids1 : IVec Gcn.SE 32) (nr : FVec Ideal Gcn.SE .f32) (f : FVec Ideal S50000x128 .f32) :
    FVec Ideal S50000x128 .f32 :=
  Host.scatterAdd scatter_S50000x128_S850000x1_S850000x128_1_0_0_1
    (broadcastInDim S50000x128 ![] bcast_S_S50000x128 (constant S_ .f32 0x00000000#32))
    (broadcastInDim Gcn.SE1 ![0] wK.bE1 ids1)
    (mulf (Host.gather gather_S50000x128_S850000x1_S850000x128_1_0_n_n_0_1_1128 f (Gcn.wrapCol wK ids0))
      (broadcastInDim S850000x128 ![0, 1] bcast_S850000x1_S850000x128_0_1
        (broadcastInDim S850000x1 ![0] bcast_S850000_S850000x1_0 nr)))

/-! ## Each stretch read over an arbitrary starting valuation -/

section Stretches
variable (V : Valuation τ sig (Elt Ideal))

/-- After the first two stretches: the two id rows, the table `dinv`, and the untouched node features. -/
theorem pre_v5 : StableHlo.after hostOps0_1 (StableHlo.after hostOps0 V) (Proc.devRef .tc main_v5)
    = Gcn.idsRow0 wK (V (Proc.devRef .tc main_arg1)) := by
  dsimp only [hostOps0_1, hostOps0]
  after_results_simp
  unfold Gcn.idsRow0
  rfl
theorem pre_v6 : StableHlo.after hostOps0_1 (StableHlo.after hostOps0 V) (Proc.devRef .tc main_v6)
    = Gcn.idsRow1 wK (V (Proc.devRef .tc main_arg1)) := by
  dsimp only [hostOps0_1, hostOps0]
  after_results_simp
  unfold Gcn.idsRow1
  rfl
/-- The in-degree. -/
theorem ops0_v10 : StableHlo.after hostOps0 V (Proc.devRef .tc main_v10)
    = (Gcn.deg wK (V (Proc.devRef .tc main_arg1)) : FVec Ideal Gcn.SN .f32) := by
  dsimp only [hostOps0]
  after_results_simp
  unfold Gcn.deg Gcn.dstIdx Gcn.idsRow1
  rfl
/-- The three operands of the outlined `where`, each over the in-degree's own read. -/
theorem ops0_v12 : StableHlo.after hostOps0 V (Proc.devRef .tc main_v12)
    = cmpf (F := Ideal) .ogt (StableHlo.after hostOps0 V (Proc.devRef .tc main_v10))
        (broadcastInDim S50000 ![] bcast_S_S50000 (constant (F := Ideal) S_ .f32 0x00000000#32)) := by
  dsimp only [hostOps0]
  after_results_simp
theorem ops0_v15 : StableHlo.after hostOps0 V (Proc.devRef .tc main_v15)
    = Host.divf (F := Ideal) (broadcastInDim S50000 ![] bcast_S_S50000 (constant (F := Ideal) S_ .f32 0x3F800000#32))
        (Host.sqrt (F := Ideal) (StableHlo.after hostOps0 V (Proc.devRef .tc main_v10))) := by
  dsimp only [hostOps0]
  after_results_simp
theorem ops0_cst3 : StableHlo.after hostOps0 V (Proc.devRef .tc main_cst_3)
    = (constant S_ .f32 0x00000000#32 : FVec Ideal S_ .f32) := by
  dsimp only [hostOps0]
  after_results_simp
theorem ops0_v5 : StableHlo.after hostOps0 V (Proc.devRef .tc main_v5) = Gcn.idsRow0 wK (V (Proc.devRef .tc main_arg1)) := by
  dsimp only [hostOps0]
  after_results_simp
  unfold Gcn.idsRow0
  rfl
/-- The outlined `where`. -/
theorem ops01_v16 : StableHlo.after hostOps0_1 V (Proc.devRef .tc main_v16)
    = (select (V (Proc.devRef .tc main_v12)) ((V (Proc.devRef .tc main_v15)) : FVec Ideal S50000 .f32)
        (broadcastInDim S50000 ![] bcast_S_S50000 (id ((V (Proc.devRef .tc main_cst_3)) : FVec Ideal S_ .f32)))) := by
  dsimp only [hostOps0_1]
  after_results_simp
  rfl
theorem pre_v16 : StableHlo.after hostOps0_1 (StableHlo.after hostOps0 V) (Proc.devRef .tc main_v16)
    = (Gcn.dinv wK (V (Proc.devRef .tc main_arg1)) : FVec Ideal Gcn.SN .f32) := by
  rw [ops01_v16, ops0_v12, ops0_v15, ops0_cst3, ops0_v10]
  unfold Gcn.dinv
  rfl
theorem pre_arg0 : StableHlo.after hostOps0_1 (StableHlo.after hostOps0 V) (Proc.devRef .tc main_arg0)
    = (V (Proc.devRef .tc main_arg0)) := by
  dsimp only [hostOps0_1, hostOps0]
  after_results_simp

/-- The third stretch. -/
theorem mid_v5 : StableHlo.after hostOps0_2 V (Proc.devRef .tc main_v5) = (V (Proc.devRef .tc main_v5)) := by
  dsimp only [hostOps0_2]
  after_results_simp
theorem mid_v6 : StableHlo.after hostOps0_2 V (Proc.devRef .tc main_v6) = (V (Proc.devRef .tc main_v6)) := by
  dsimp only [hostOps0_2]
  after_results_simp
theorem mid_v31 : StableHlo.after hostOps0_2 V (Proc.devRef .tc main_v31)
    = nrmOf (V (Proc.devRef .tc main_v5)) (V (Proc.devRef .tc main_v6)) (V (Proc.devRef .tc main_v16)) := by
  dsimp only [hostOps0_2]
  after_results_simp
  rfl
theorem mid_v44 : StableHlo.after hostOps0_2 V (Proc.devRef .tc main_v44)
    = aggOf (V (Proc.devRef .tc main_v5)) (V (Proc.devRef .tc main_v6)) (nrmOf (V (Proc.devRef .tc main_v5)) (V (Proc.devRef .tc main_v6)) (V (Proc.devRef .tc main_v16))) (V (Proc.devRef .tc main_arg0)) := by
  dsimp only [hostOps0_2]
  after_results_simp
  rfl

/-- The stretch between the regions. -/
theorem tail_v58 : StableHlo.after hostOps1 V (Proc.devRef .tc main_v58)
    = aggOf (V (Proc.devRef .tc main_v5)) (V (Proc.devRef .tc main_v6)) (V (Proc.devRef .tc main_v31)) (V (Proc.devRef .tc main_v45)) := by
  dsimp only [hostOps1]
  after_results_simp
  rfl

end Stretches

end HostReads

variable (m : (ℓ : Loc nD τ sig) → Buf (Elt Ideal) ℓ) (ρ : Dev nD → PrngReg)

/-- The aggregation of a table `f` as this program spells it on the host. -/
abbrev aggTerm (c : Dev nD) (f : FVec Ideal S50000x128 .f32) : FVec Ideal S50000x128 .f32 :=
  Host.scatterAdd scatter_S50000x128_S850000x1_S850000x128_1_0_0_1
    (broadcastInDim S50000x128 ![] bcast_S_S50000x128 (constant S_ .f32 0x00000000#32))
    (Gcn.dstIdx wK (m ((c.tc : Thread nD τ).loc main_arg1)))
    (mulf (Host.gather gather_S50000x128_S850000x1_S850000x128_1_0_n_n_0_1_1128 f (Gcn.srcIdx wK (m ((c.tc : Thread nD τ).loc main_arg1))))
      (broadcastInDim S850000x128 ![0, 1] bcast_S850000x1_S850000x128_0_1
        (broadcastInDim S850000x1 ![0] bcast_S850000_S850000x1_0 (Gcn.nrm wK (m ((c.tc : Thread nD τ).loc main_arg1))))))

/-! ## The chain at this program's launch memory -/

theorem W2_v5 (c : Dev nD) : W2 m ρ c (Proc.devRef .tc main_v5) = Gcn.idsRow0 wK (m ((c.tc : Thread nD τ).loc main_arg1)) :=
  pre_v5 (W0 m ρ c)
theorem W2_v6 (c : Dev nD) : W2 m ρ c (Proc.devRef .tc main_v6) = Gcn.idsRow1 wK (m ((c.tc : Thread nD τ).loc main_arg1)) :=
  pre_v6 (W0 m ρ c)
theorem W2_v16 (c : Dev nD) :
    W2 m ρ c (Proc.devRef .tc main_v16) = (Gcn.dinv wK (m ((c.tc : Thread nD τ).loc main_arg1)) : FVec Ideal Gcn.SN .f32) :=
  pre_v16 (W0 m ρ c)
theorem W2_arg0 (c : Dev nD) : W2 m ρ c (Proc.devRef .tc main_arg0) = (m ((c.tc : Thread nD τ).loc main_arg0)) :=
  pre_arg0 (W0 m ρ c)
theorem W3_v5 (c : Dev nD) : W3 m ρ c (Proc.devRef .tc main_v5) = Gcn.idsRow0 wK (m ((c.tc : Thread nD τ).loc main_arg1)) :=
  (mid_v5 (W2 m ρ c)).trans (W2_v5 m ρ c)
theorem W3_v6 (c : Dev nD) : W3 m ρ c (Proc.devRef .tc main_v6) = Gcn.idsRow1 wK (m ((c.tc : Thread nD τ).loc main_arg1)) :=
  (mid_v6 (W2 m ρ c)).trans (W2_v6 m ρ c)
/-- The per-edge weights at region 0's entry. -/
theorem W3_v31 (c : Dev nD) :
    W3 m ρ c (Proc.devRef .tc main_v31) = (Gcn.nrm wK (m ((c.tc : Thread nD τ).loc main_arg1)) : FVec Ideal Gcn.SE .f32) := by
  refine (mid_v31 (W2 m ρ c)).trans ?_
  rw [W2_v5 m ρ c, W2_v6 m ρ c, W2_v16 m ρ c]
  unfold Gcn.nrm Gcn.srcIdx
  rfl
/-- Region 0 writes none of the three, so they are the same at its exit. -/
theorem W4_v5 (c : Dev nD) : W4 m ρ c (Proc.devRef .tc main_v5) = Gcn.idsRow0 wK (m ((c.tc : Thread nD τ).loc main_arg1)) :=
  (W4_of_ne m ρ c main_v5 (by decide)).trans (W3_v5 m ρ c)
theorem W4_v6 (c : Dev nD) : W4 m ρ c (Proc.devRef .tc main_v6) = Gcn.idsRow1 wK (m ((c.tc : Thread nD τ).loc main_arg1)) :=
  (W4_of_ne m ρ c main_v6 (by decide)).trans (W3_v6 m ρ c)
theorem W4_v31 (c : Dev nD) :
    W4 m ρ c (Proc.devRef .tc main_v31) = (Gcn.nrm wK (m ((c.tc : Thread nD τ).loc main_arg1)) : FVec Ideal Gcn.SE .f32) :=
  (W4_of_ne m ρ c main_v31 (by decide)).trans (W3_v31 m ρ c)

/-! ## Region 0's entry contents -/

theorem W3_v44 (c : Dev nD) :
    W3 m ρ c (Proc.devRef .tc main_v44) = aggTerm m c (m ((c.tc : Thread nD τ).loc main_arg0)) := by
  refine (mid_v44 (W2 m ρ c)).trans ?_
  rw [W2_v5 m ρ c, W2_v6 m ρ c, W2_v16 m ρ c, W2_arg0 m ρ c]
  unfold aggTerm Gcn.nrm Gcn.srcIdx Gcn.dstIdx
  rfl
theorem W3_arg3 (c : Dev nD) : W3 m ρ c (Proc.devRef .tc main_arg3) = m ((c.tc : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg3) := rfl
theorem W3_arg4 (c : Dev nD) : W3 m ρ c (Proc.devRef .tc main_arg4) = m ((c.tc : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg4) := rfl

/-! ## Region 1's entry contents -/

/-- The four weight and bias arguments the concatenates read are still as launched when region 0 has run. -/
theorem W4_arg5 (c : Dev nD) : W4 m ρ c (Proc.devRef .tc main_arg5) = m ((c.tc : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg5) := rfl

theorem W4_arg6 (c : Dev nD) : W4 m ρ c (Proc.devRef .tc main_arg6) = m ((c.tc : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg6) := rfl

theorem W4_arg7 (c : Dev nD) : W4 m ρ c (Proc.devRef .tc main_arg7) = m ((c.tc : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg7) := rfl

theorem W4_arg8 (c : Dev nD) : W4 m ρ c (Proc.devRef .tc main_arg8) = m ((c.tc : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg8) := rfl

theorem W5_v58 (c : Dev nD) :
    W5 m ρ c (Proc.devRef .tc main_v58) = aggTerm m c (W4 m ρ c (Proc.devRef .tc main_v45)) := by
  refine (tail_v58 (W4 m ρ c)).trans ?_
  rw [W4_v5 m ρ c, W4_v6 m ρ c, W4_v31 m ρ c]
  unfold aggTerm Gcn.srcIdx Gcn.dstIdx
  rfl
theorem W5_v59 (c : Dev nD) :
    W5 m ρ c (Proc.devRef .tc main_v59)
      = Gcn.catCols (K := 128) (m ((c.tc : Thread nD τ).loc main_arg5)) (m ((c.tc : Thread nD τ).loc main_arg7)) := by
  show StableHlo.after hostOps1 (W4 m ρ c) (Proc.devRef .tc main_v59) = _
  dsimp only [hostOps1]
  after_results_simp
  funext i
  simp only [Gcn.catCols]
  split
  · next h =>
    refine (concatenate_pair_apply_left (s₁ := S128x64) (s₂ := S128x64) (1 : Fin 2) _ _ _ i rfl
      (ix2 (i 0) (⟨(i 1).val, h⟩ : Fin 64)) fun b => ?_).trans ?_
    · match b with
      | ⟨0, _⟩ => rfl
      | ⟨1, _⟩ => rfl
    · refine congrFun (?_ : _ = m ((c.tc : Thread nD τ).loc main_arg5)) _
      after_results_simp
      exact W4_arg5 m ρ c
  · next h =>
    refine (concatenate_pair_apply_right (s₁ := S128x64) (s₂ := S128x64) (1 : Fin 2) _ _ _ i rfl rfl
      (ix2 (i 0) (⟨(i 1).val - 64, by have := idx2_lt1 i; omega⟩ : Fin 64)) (fun b hb => ?_) ?_).trans ?_
    · match b, hb with
      | ⟨0, _⟩, _ => rfl
      | ⟨1, _⟩, hb => exact absurd rfl hb
    · show (i 1).val - 64 + 64 = (i 1).val
      omega
    · refine congrFun (?_ : _ = m ((c.tc : Thread nD τ).loc main_arg7)) _
      after_results_simp
      exact W4_arg7 m ρ c
theorem W5_v60 (c : Dev nD) :
    W5 m ρ c (Proc.devRef .tc main_v60)
      = Gcn.cat (m ((c.tc : Thread nD τ).loc main_arg6)) (m ((c.tc : Thread nD τ).loc main_arg8)) := by
  show StableHlo.after hostOps1 (W4 m ρ c) (Proc.devRef .tc main_v60) = _
  dsimp only [hostOps1]
  after_results_simp
  funext i
  simp only [Gcn.cat]
  split
  · next h =>
    refine (concatenate_pair_apply_left (s₁ := S64) (s₂ := S64) (0 : Fin 1) _ _ _ i rfl
      (ix1 (⟨(i 0).val, h⟩ : Fin 64)) fun b => ?_).trans ?_
    · match b with
      | ⟨0, _⟩ => rfl
    · refine congrFun (?_ : _ = m ((c.tc : Thread nD τ).loc main_arg6)) _
      after_results_simp
      exact W4_arg6 m ρ c
  · next h =>
    refine (concatenate_pair_apply_right (s₁ := S64) (s₂ := S64) (0 : Fin 1) _ _ _ i rfl rfl
      (ix1 (⟨(i 0).val - 64, by have : (i 0).val < 128 := (i 0).isLt; omega⟩ : Fin 64)) (fun b hb => ?_) ?_).trans ?_
    · match b, hb with
      | ⟨0, _⟩, hb => exact absurd rfl hb
    · show (i 0).val - 64 + 64 = (i 0).val
      omega
    · refine congrFun (?_ : _ = m ((c.tc : Thread nD τ).loc main_arg8)) _
      after_results_simp
      exact W4_arg8 m ρ c
theorem W5_arg9 (c : Dev nD) : W5 m ρ c (Proc.devRef .tc main_arg9) = m ((c.tc : Thread nD τ).loc main_arg9) :=
  calc W5 m ρ c (Proc.devRef .tc main_arg9)
    _ = W4 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg9) := rfl
theorem W5_arg10 (c : Dev nD) : W5 m ρ c (Proc.devRef .tc main_arg10) = m ((c.tc : Thread nD τ).loc main_arg10) :=
  calc W5 m ρ c (Proc.devRef .tc main_arg10)
    _ = W4 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg10) := rfl
theorem W5_arg2 (c : Dev nD) : W5 m ρ c (Proc.devRef .tc main_arg2) = m ((c.tc : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg2) := rfl

/-! ## The results: two column slices of region 1's first output, and its second output -/

theorem W7_v62 (c : Dev nD) :
    W7 m ρ c (Proc.devRef .tc main_v62)
      = fun i : S50000x64.Idx => W6 m ρ c (Proc.devRef .tc main_v61_0) (ix2 (i 0) (Gcn.lo (i 1))) := by
  show StableHlo.after hostOps2 (W6 m ρ c) (Proc.devRef .tc main_v62) = _
  dsimp only [hostOps2]
  after_results_simp
  funext i
  refine extractStridedSlice_apply _ _ _ i (ix2 (i 0) (Gcn.lo (i 1))) fun a => ?_
  match a with
  | ⟨0, _⟩ => show (i 0).val = 0 + (i 0).val; omega
  | ⟨1, _⟩ => show (i 1).val = 0 + (i 1).val; omega
theorem W7_v63 (c : Dev nD) :
    W7 m ρ c (Proc.devRef .tc main_v63)
      = fun i : S50000x64.Idx => W6 m ρ c (Proc.devRef .tc main_v61_0) (ix2 (i 0) (Gcn.hi (i 1))) := by
  show StableHlo.after hostOps2 (W6 m ρ c) (Proc.devRef .tc main_v63) = _
  dsimp only [hostOps2]
  after_results_simp
  funext i
  refine extractStridedSlice_apply _ _ _ i (ix2 (i 0) (Gcn.hi (i 1))) fun a => ?_
  match a with
  | ⟨0, _⟩ => show (i 0).val = 0 + (i 0).val; omega
  | ⟨1, _⟩ => show 64 + (i 1).val = 64 + (i 1).val; rfl
theorem W7_v61_1 (c : Dev nD) :
    W7 m ρ c (Proc.devRef .tc main_v61_1) = W6 m ρ c (Proc.devRef .tc main_v61_1) :=
  StableHlo.after_of_forall_not_mem (b := Proc.devRef .tc main_v61_1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-! ## Which array each window is -/

theorem arr0 : Pipeline.arrRef spec0 0 = main_v44 ∧ Pipeline.arrRef spec0 1 = main_arg3 ∧ Pipeline.arrRef spec0 2 = main_arg4
    ∧ Pipeline.arrRef spec0 3 = main_v45 := ⟨rfl, rfl, rfl, rfl⟩
theorem arr1 : Pipeline.arrRef spec1 0 = main_v58 ∧ Pipeline.arrRef spec1 1 = main_v59 ∧ Pipeline.arrRef spec1 2 = main_v60
    ∧ Pipeline.arrRef spec1 3 = main_arg9 ∧ Pipeline.arrRef spec1 4 = main_arg10 ∧ Pipeline.arrRef spec1 5 = main_arg2
    ∧ Pipeline.arrRef spec1 6 = main_v61_0 ∧ Pipeline.arrRef spec1 7 = main_v61_1 := ⟨rfl, rfl, rfl, rfl, rfl, rfl, rfl, rfl⟩

end Cert.KernelIdeal.HostValue

end
-- ==== Proof.KReg.lean ====
/-
  The two pallas_call regions' output arrays, each as ONE function of the region's input arrays.

  Both regions run over 25 grid points. Point `t` is handed rows `2000·t … 2000·t + 1999` of every row-blocked array
  (index map `(t, 0)`) and the weight and bias arrays whole (index map `(0, 0)`), and writes back its body's result on
  those blocks. The row blocks tile the arrays, so block `t` of an output is a restriction of one whole-array function:
  • first region: `relu (X·W + b)` — a 128-deep matrix product into a zero accumulator (read at an index: the plain sum over
    the contracted axis), the bias row broadcast down the block, a maximum with zero;
  • second region, first output (128 wide, written as two column halves): the left half is `A·Wmv + bmv`'s left half, the
    right half is `tanh (relu (its right half)·Wl + bl)`;
  • second region, second output: `noise · exp (½ · that tanh) + (the left half)`.
  Each is proved for a symbolic grid point and then carried to the array by the cover of the rows by the blocks.
-/
import proofs.«419545_j24842090840532_3_alg».proof.Proof.Gen.KernelIdeal.Frame
import proofs.«419545_j24842090840532_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegValue

open Cert.KernelIdeal Cert.KernelIdeal.Gen Idealize.ShloMosaic Idealize.ShloMosaic.TcCoe Idealize.SL.Sem
open Idealize.ShloMosaic.ValueIdx

/-! ## Zero offsets -/

theorem hz2 : (![0, 0] : Fin 2 → Nat) = fun _ => 0 := funext fun a => by fin_cases a <;> rfl
theorem hz1 : (![0] : Fin 1 → Nat) = fun _ => 0 := funext fun a => by fin_cases a; rfl

/-! ## The 128-deep matrix product at an index -/

theorem lhs_mm128_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_mm128_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_mm128_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_mm128_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product of a [2000,128] block with a [128,128] matrix into a zero accumulator, at row `p`, column `q`. -/
theorem mm128_apply (l : FVec Ideal S2000x128 .f32) (r : FVec Ideal S128x128 .f32) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  refine (Ideal.matmul_constant_zero_apply _ _ _ _ _).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_mm128_0 _ _
    | ⟨1, _⟩ => exact (lhs_mm128_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_mm128_0 _ _).trans hk
    | ⟨1, _⟩ => exact rhs_mm128_1 _ _)
  rw [el, er]

/-- A 128-vector laid out as one row and repeated down 2000 rows, at row `p`, column `q`. -/
theorem bias128_apply (b : FVec Ideal S128 .f32) (p : Fin 2000) (q : Fin 128) :
    broadcastTo S2000x128 (shapeCast S1x128 b shapeCasts_S128_S1x128) broadcasts_S1x128_S2000x128 (ix2 p q) = b (ix1 q) :=
  (broadcastTo_1b_ab_apply _ broadcasts_S1x128_S2000x128 p q).trans (shapeCast_a_1a_apply b shapeCasts_S128_S1x128 0 q)

/-! ## Region 0's payload at an index -/

/-- The dense layer's block: `max (x·W + b) 0`, entry by entry. -/
theorem pay1_apply (x0 : Vec Ideal S2000x128 .f32) (x1 : Vec Ideal S128x128 .f32) (x2 : Vec Ideal S128 .f32) (p : Fin 2000) (q : Fin 128) :
    k0_pay1 (F := Ideal) x0 x1 x2 (ix2 p q) = max ((∑ k : Fin 128, x0 (ix2 p k) * x1 (ix2 k q)) + x2 (ix1 q)) 0 := by
  unfold k0_pay1
  rw [maximumf_apply, addf_apply, shapeCast_self, mm128_apply, bias128_apply, broadcast_apply]
  exact congrArg (max _) Ideal.ofBits_zero_f32

/-! ## The 64-deep matrix product at an index -/

theorem lhs_mm64_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs_mm64_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs_mm64_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs_mm64_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The product of a [2000,64] block with a [64,64] matrix into a zero accumulator, at row `p`, column `j`. -/
theorem mm64_apply (l : FVec Ideal S2000x64 .f32) (r : FVec Ideal S64x64 .f32) (p : Fin 2000) (j : Fin 64) :
    matmul dot_S2000x64_S64x64_S2000x64_1_0_0_1_n_n none l r (constant (F := Ideal) S2000x64 .f32 0x00000000#32) (ix2 p j)
      = ∑ k : Fin 64, l (ix2 p k) * r (ix2 k j) := by
  refine (Ideal.matmul_constant_zero_apply _ _ _ _ _).trans ?_
  rw [← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 p j) ((ValueIdx.contrEquiv1 dot_S2000x64_S64x64_S2000x64_1_0_0_1_n_n 64 rfl rfl).symm k) = ix2 p k := funext fun a => Fin.ext (by
    match a with
    | ⟨0, _⟩ => exact lhs_mm64_0 _ _
    | ⟨1, _⟩ => exact (lhs_mm64_1 _ _).trans hk)
  have er : dot_S2000x64_S64x64_S2000x64_1_0_0_1_n_n.rhsIdx (ix2 p j) ((ValueIdx.contrEquiv1 dot_S2000x64_S64x64_S2000x64_1_0_0_1_n_n 64 rfl rfl).symm k) = ix2 k j := funext fun a => Fin.ext (by
    match a with
    | ⟨0, _⟩ => exact (rhs_mm64_0 _ _).trans hk
    | ⟨1, _⟩ => exact rhs_mm64_1 _ _)
  rw [el, er]

/-- A 64-vector laid out as one row and repeated down 2000 rows, at row `p`, column `j`. -/
theorem bias64_apply (b : FVec Ideal S64 .f32) (p : Fin 2000) (j : Fin 64) :
    broadcastTo S2000x64 (shapeCast S1x64 b shapeCasts_S64_S1x64) broadcasts_S1x64_S2000x64 (ix2 p j) = b (ix1 j) :=
  (broadcastTo_1b_ab_apply _ broadcasts_S1x64_S2000x64 p j).trans (shapeCast_a_1a_apply b shapeCasts_S64_S1x64 0 j)

/-- The hyperbolic tangent and the exponential of a block act entry by entry. -/
theorem tanh_apply {s : Shape} {φ : FTy} (a : FVec Ideal s φ) (i : s.Idx) : tanh a i = Ideal.tanh (a i) := rfl
theorem exp_apply {s : Shape} {φ : FTy} (a : FVec Ideal s φ) (i : s.Idx) : exp a i = Ideal.exp (a i) := rfl

/-! ## Region 1's payloads at an index -/

/-- The 128-wide projection's block: `x·W + b`, entry by entry. -/
theorem pay1r_apply (x0 : Vec Ideal S2000x128 .f32) (x1 : Vec Ideal S128x128 .f32) (x2 : Vec Ideal S128 .f32) (p : Fin 2000) (q : Fin 128) :
    k1_pay1 (F := Ideal) x0 x1 x2 (ix2 p q) = (∑ k : Fin 128, x0 (ix2 p k) * x1 (ix2 k q)) + x2 (ix1 q) := by
  unfold k1_pay1
  rw [addf_apply, shapeCast_self, shapeCast_self, shapeCast_self, mm128_apply, bias128_apply]

/-- The left half of the projection's block. -/
theorem pay2_apply (x0 : Vec Ideal S2000x128 .f32) (x1 : Vec Ideal S128x128 .f32) (x2 : Vec Ideal S128 .f32) (p : Fin 2000) (j : Fin 64) :
    k1_pay2 (F := Ideal) x0 x1 x2 (ix2 p j) = k1_pay1 (F := Ideal) x0 x1 x2 (ix2 p (Gcn.lo j)) := by
  unfold k1_pay2
  exact slice2_axis1_apply 0 _ slices_S2000x128_o0_0_S2000x64 p j (Gcn.lo j) (Nat.zero_add _).symm

/-- The tanh layer's block: the positive part of the projection's right half, times a [64,64] matrix, plus a bias row,
    through tanh. -/
theorem pay3_apply (x0 : Vec Ideal S2000x128 .f32) (x1 : Vec Ideal S128x128 .f32) (x2 : Vec Ideal S128 .f32)
    (x3 : Vec Ideal S64x64 .f32) (x4 : Vec Ideal S64 .f32) (p : Fin 2000) (j : Fin 64) :
    k1_pay3 (F := Ideal) x0 x1 x2 x3 x4 (ix2 p j)
      = Ideal.tanh ((∑ k : Fin 64, max (k1_pay1 (F := Ideal) x0 x1 x2 (ix2 p (Gcn.hi k))) 0 * x3 (ix2 k j)) + x4 (ix1 j)) := by
  unfold k1_pay3
  rw [tanh_apply, addf_apply, mm64_apply, bias64_apply]
  refine congrArg Ideal.tanh (congrArg₂ (fun a b : EReal => a + b) (Finset.sum_congr rfl fun k _ => ?_) rfl)
  rw [maximumf_apply, broadcast_apply]
  refine congrArg₂ (fun a b : EReal => a * b) ?_ rfl
  refine congrArg₂ (fun a b : EReal => max a b) ?_ Ideal.ofBits_zero_f32
  exact slice2_axis1_apply 64 _ slices_S2000x128_o0_64_S2000x64 p k (Gcn.hi k) rfl

/-- The reparameterisation's block: `noise · exp (½ · tanh layer) + left half`, entry by entry. -/
theorem pay4_apply (x0 : Vec Ideal S2000x128 .f32) (x1 : Vec Ideal S128x128 .f32) (x2 : Vec Ideal S128 .f32)
    (x3 : Vec Ideal S64x64 .f32) (x4 : Vec Ideal S64 .f32) (x5 : Vec Ideal S2000x64 .f32) (p : Fin 2000) (j : Fin 64) :
    k1_pay4 (F := Ideal) x0 x1 x2 x3 x4 x5 (ix2 p j)
      = x5 (ix2 p j) * Ideal.exp (Gcn.half * k1_pay3 (F := Ideal) x0 x1 x2 x3 x4 (ix2 p j)) + k1_pay2 (F := Ideal) x0 x1 x2 (ix2 p j) := by
  unfold k1_pay4
  rw [addf_apply, mulf_apply, exp_apply, mulf_apply, broadcast_apply]
  rfl

/-! ## The first output's two halves, on the specification's side -/

section Halves
variable {M : Nat} (A : (⟨2, ![M, 128]⟩ : Shape).Idx → EReal) (Wmv : (⟨2, ![128, 128]⟩ : Shape).Idx → EReal)
  (bmv : (⟨1, ![128]⟩ : Shape).Idx → EReal) (Wl : (⟨2, ![64, 64]⟩ : Shape).Idx → EReal)
  (bl : (⟨1, ![64]⟩ : Shape).Idx → EReal)

/-- Left of column 64 the first output is the projection. -/
theorem mlv1_lo (r : Fin M) (q : Fin 128) (hq : q.val < 64) :
    Gcn.mlv1 A Wmv bmv Wl bl (ix2 r q) = Gcn.out1 A Wmv bmv (ix2 r q) := if_pos hq

/-- From column 64 on it is the tanh layer, 64 columns to the left. -/
theorem mlv1_hi (r : Fin M) (q : Fin 128) (hq : ¬ q.val < 64) :
    Gcn.mlv1 A Wmv bmv Wl bl (ix2 r q) = Gcn.lv1 A Wmv bmv Wl bl (ix2 r ⟨q.val - 64, by have := q.isLt; omega⟩) := if_neg hq

end Halves

/-! ## What the stores leave in the output blocks -/

/-- The second output's one store leaves the reparameterisation's block. -/
theorem out1_7_eq (x0 : Vec Ideal S2000x128 .f32) (x1 : Vec Ideal S128x128 .f32) (x2 : Vec Ideal S128 .f32)
    (x3 : Vec Ideal S64x64 .f32) (x4 : Vec Ideal S64 .f32) (x5 : Vec Ideal S2000x64 .f32) :
    out1_7 x0 x1 x2 x3 x4 x5 = k1_pay4 (F := Ideal) x0 x1 x2 x3 x4 x5 := by
  unfold out1_7
  rw [View.canon_unit_zero hz2]
  simp only [View.ld_unit_zero (S := S2000x128) hz2, View.ld_unit_zero (S := S128x128) hz2, View.ld_unit_zero (S := S128) hz1, View.ld_unit_zero (S := S64x64) hz2, View.ld_unit_zero (S := S64) hz1, View.ld_unit_zero (S := S2000x64) hz2]

/-- Left of column 64 the first output's block holds the earlier store: the projection's left half. -/
theorem out1_6_lo (x0 : Vec Ideal S2000x128 .f32) (x1 : Vec Ideal S128x128 .f32) (x2 : Vec Ideal S128 .f32)
    (x3 : Vec Ideal S64x64 .f32) (x4 : Vec Ideal S64 .f32) (x5 : Vec Ideal S2000x64 .f32) (p : Fin 2000) (q : Fin 128) (hq : q.val < 64) :
    out1_6 x0 x1 x2 x3 x4 x5 (ix2 p q) = k1_pay2 (F := Ideal) x0 x1 x2 (ix2 p ⟨q.val, hq⟩) := by
  unfold out1_6
  simp only [View.ld_unit_zero (S := S2000x128) hz2, View.ld_unit_zero (S := S128x128) hz2, View.ld_unit_zero (S := S128) hz1, View.ld_unit_zero (S := S64x64) hz2, View.ld_unit_zero (S := S64) hz1, View.ld_unit_zero (S := S2000x64) hz2]
  have hm : ix2 p q ∉ r1_7.set := by
    rw [Rect.mem_set_unit]
    intro h
    have h1 : 64 ≤ q.val ∧ q.val < 64 + 64 := h 1
    omega
  refine (View.canon_cons_of_not_mem ⟨r1_7, _⟩ _ hm).trans ?_
  have he : ix2 p q = r1_6.emb (ix2 p ⟨q.val, hq⟩) := funext fun a => Fin.ext (by
    match a with
    | ⟨0, _⟩ => show p.val = 0 + 1 * p.val; omega
    | ⟨1, _⟩ => show q.val = 0 + 1 * q.val; omega)
  exact (congrArg _ he).trans (View.canon_cons_emb r1_6 _ _ _)

/-- From column 64 on it holds the later store: the tanh layer's block, 64 columns to the left. -/
theorem out1_6_hi (x0 : Vec Ideal S2000x128 .f32) (x1 : Vec Ideal S128x128 .f32) (x2 : Vec Ideal S128 .f32)
    (x3 : Vec Ideal S64x64 .f32) (x4 : Vec Ideal S64 .f32) (x5 : Vec Ideal S2000x64 .f32) (p : Fin 2000) (q : Fin 128) (hq : ¬ q.val < 64) :
    out1_6 x0 x1 x2 x3 x4 x5 (ix2 p q) = k1_pay3 (F := Ideal) x0 x1 x2 x3 x4 (ix2 p ⟨q.val - 64, by have := q.isLt; omega⟩) := by
  unfold out1_6
  simp only [View.ld_unit_zero (S := S2000x128) hz2, View.ld_unit_zero (S := S128x128) hz2, View.ld_unit_zero (S := S128) hz1, View.ld_unit_zero (S := S64x64) hz2, View.ld_unit_zero (S := S64) hz1, View.ld_unit_zero (S := S2000x64) hz2]
  have he : ix2 p q = r1_7.emb (ix2 p ⟨q.val - 64, by have := q.isLt; omega⟩) := funext fun a => Fin.ext (by
    match a with
    | ⟨0, _⟩ => show p.val = 0 + 1 * p.val; omega
    | ⟨1, _⟩ => show q.val = 64 + 1 * (q.val - 64); omega)
  exact (congrArg _ he).trans (View.canon_cons_emb r1_7 _ _ _)

variable (V : (c : Dev nD) → (b : Ref sig .tc) → Buf (Elt Ideal) ((c : Thread nD τ).loc b))

/-! ## Region 0: the blocks as rows of the arrays -/

/-- The printed index maps over the 25 grid points: the row-blocked windows sit at block `t`, the whole-array
    windows at block 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row `p` of the input block at point `t` is row `2000 t + p` of the input array. -/
theorem iblk0_0_apply (c : Dev nD) (t : Fin cfg0.N) (p : Fin 2000) (k : Fin 128) (r : Fin 50000) (hr : r.val = 2000 * t.val + p.val) :
    (iblk0 V c 0 t : Vec Ideal S2000x128 .f32) (ix2 p k)
      = (V c (Pipeline.arrRef spec0 0) : S50000x128.Idx → EReal) (ix2 r k) := by
  obtain ⟨e0, e1, -⟩ := idx_facts0 t
  unfold iblk0
  rw [View.read_apply]
  show V c (Pipeline.arrRef spec0 0) _ = V c (Pipeline.arrRef spec0 0) _
  congr 1
  funext a
  apply Fin.ext
  match a with
  | ⟨0, _⟩ => show win0_0.index t 0 * 2000 + 1 * p.val = r.val; rw [e0, hr]; omega
  | ⟨1, _⟩ => show win0_0.index t 1 * 128 + 1 * k.val = k.val; rw [e1]; omega

/-- The weight block is the weight array. -/
theorem iblk0_1_apply (c : Dev nD) (t : Fin cfg0.N) (k : Fin 128) (q : Fin 128) :
    (iblk0 V c 1 t : Vec Ideal S128x128 .f32) (ix2 k q)
      = (V c (Pipeline.arrRef spec0 1) : S128x128.Idx → EReal) (ix2 k q) := by
  obtain ⟨-, -, e2, e3, -⟩ := idx_facts0 t
  unfold iblk0
  rw [View.read_apply]
  show V c (Pipeline.arrRef spec0 1) _ = V c (Pipeline.arrRef spec0 1) _
  congr 1
  funext a
  apply Fin.ext
  match a with
  | ⟨0, _⟩ => show win0_1.index t 0 * 128 + 1 * k.val = k.val; rw [e2]; omega
  | ⟨1, _⟩ => show win0_1.index t 1 * 128 + 1 * q.val = q.val; rw [e3]; omega

/-- The bias block is the bias array. -/
theorem iblk0_2_apply (c : Dev nD) (t : Fin cfg0.N) (q : Fin 128) :
    (iblk0 V c 2 t : Vec Ideal S128 .f32) (ix1 q)
      = (V c (Pipeline.arrRef spec0 2) : S128.Idx → EReal) (ix1 q) := by
  obtain ⟨-, -, -, -, e4, -⟩ := idx_facts0 t
  unfold iblk0
  rw [View.read_apply]
  show V c (Pipeline.arrRef spec0 2) _ = V c (Pipeline.arrRef spec0 2) _
  congr 1
  funext a
  apply Fin.ext
  match a with
  | ⟨0, _⟩ => show win0_2.index t 0 * 128 + 1 * q.val = q.val; rw [e4]; omega

/-- The body's result at point `t`, entry `y` of the block, is the dense layer of the arrays at the entry's place `i`
    in the array. -/
theorem point0 (c : Dev nD) (t : Fin cfg0.N) (y : S2000x128.Idx) (i : S50000x128.Idx)
    (h0 : (i 0).val = 2000 * t.val + (y 0).val) (h1 : (i 1).val = (y 1).val) :
    k0_pay1 (F := Ideal) (iblk0 V c 0 t) (iblk0 V c 1 t) (iblk0 V c 2 t) y
      = Gcn.hid0 (M := 50000) (V c (Pipeline.arrRef spec0 0)) (V c (Pipeline.arrRef spec0 1)) (V c (Pipeline.arrRef spec0 2)) i := by
  obtain ⟨p, q, rfl⟩ : ∃ (p : Fin 2000) (q : Fin 128), y = ix2 p q := ⟨y 0, y 1, eq_ix2 y⟩
  obtain ⟨r, s, rfl⟩ : ∃ (r : Fin 50000) (s : Fin 128), i = ix2 r s := ⟨i 0, i 1, eq_ix2 i⟩
  obtain rfl : q = s := (Fin.ext h1).symm
  refine (pay1_apply (iblk0 V c 0 t) (iblk0 V c 1 t) (iblk0 V c 2 t) p q).trans ?_
  unfold Gcn.hid0 Gcn.relu Gcn.addRow Gcn.mm
  refine congrArg (fun z : EReal => max z 0) ?_
  refine congrArg₂ (fun a b : EReal => a + b) (Finset.sum_congr rfl fun k _ => ?_) (iblk0_2_apply V c t q)
  exact congrArg₂ (fun a b : EReal => a * b) (iblk0_0_apply V c t p k r h0) (iblk0_1_apply V c t k q)

/-! ## Region 0: what a point writes back, the cover, the array -/

/-- Point `t` writes back block `t` of the dense layer of the arrays. -/
theorem flushed0_3_eq (c : Dev nD) (t : Fin cfg0.N) :
    (dat0 (F := Ideal) V c).flushed 3 t = ((cfg0.win 3).blk t).view.read (Elt Ideal)
      (Gcn.hid0 (M := 50000) (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz2]
  simp only [View.ld_unit_zero (S := S2000x128) hz2, View.ld_unit_zero (S := S128x128) hz2, View.ld_unit_zero (S := S128) hz1]
  obtain ⟨-, -, -, -, -, e5, e6⟩ := idx_facts0 t
  funext j
  refine point0 V c t j (((cfg0.win 3).blk t).view.emb j) ?_ ?_
  · show win0_3.index t 0 * 2000 + 1 * (j 0).val = 2000 * t.val + (j 0).val; rw [e5]; omega
  · show win0_3.index t 1 * 128 + 1 * (j 1).val = (j 1).val; rw [e6]; omega

/-- An index of the output array is in point `t`'s block iff each coordinate is in the block's range on its axis. -/
theorem mem_blk0_3 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v45).slice (win0_3.rect t)).set ↔ _
  rw [View.set_slice_whole, Rect.mem_set_unit]
  exact Iff.rfl

/-- Every row lies in the block of the point `row / 2000`. -/
theorem covered0_3 (i : S50000x128.Idx) : ∃ t : Fin cfg0.N, (cfg0.win 3).flush t = true ∧ i ∈ ((cfg0.win 3).blk t).view.set := by
  have hi0 : (i 0).val < 50000 := idx2_lt0 i
  have hi1 : (i 1).val < 128 := idx2_lt1 i
  have hN : cfg0.N = 25 := N_0
  refine ⟨⟨(i 0).val / 2000, by rw [hN]; omega⟩, flush0_3 _, ?_⟩
  rw [mem_blk0_3]
  obtain ⟨-, -, -, -, -, e5, e6⟩ := idx_facts0 ⟨(i 0).val / 2000, by rw [hN]; omega⟩
  intro a
  match a with
  | ⟨0, _⟩ =>
    show win0_3.index _ 0 * 2000 ≤ (i 0).val ∧ (i 0).val < win0_3.index _ 0 * 2000 + 2000
    rw [e5]; show (i 0).val / 2000 * 2000 ≤ (i 0).val ∧ (i 0).val < (i 0).val / 2000 * 2000 + 2000; omega
  | ⟨1, _⟩ =>
    show win0_3.index _ 1 * 128 ≤ (i 1).val ∧ (i 1).val < win0_3.index _ 1 * 128 + 128
    rw [e6]; omega

theorem arr0_3 (c : Dev nD) :
    (dat0 (F := Ideal) V c).arrAt 3 cfg0.N
      = Gcn.hid0 (M := 50000) (V c (Pipeline.arrRef spec0 0)) (V c (Pipeline.arrRef spec0 1)) (V c (Pipeline.arrRef spec0 2)) :=
  (dat0 (F := Ideal) V c).arrAt_eq_of_cover 3 _ (fun t _ => flushed0_3_eq V c t) covered0_3

/-! ## Region 1: the blocks as rows of the arrays -/

/-- The printed index maps over the 25 grid points: the row-blocked windows sit at block `t`, the whole-array
    windows at block 0. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- Row `p` of the aggregated block at point `t` is row `2000 t + p` of the aggregated array. -/
theorem iblk1_0_apply (c : Dev nD) (t : Fin cfg1.N) (p : Fin 2000) (k : Fin 128) (r : Fin 50000) (hr : r.val = 2000 * t.val + p.val) :
    (iblk1 V c 0 t : Vec Ideal S2000x128 .f32) (ix2 p k)
      = (V c (Pipeline.arrRef spec1 0) : S50000x128.Idx → EReal) (ix2 r k) := by
  obtain ⟨e0, e1, -⟩ := idx_facts1 t
  unfold iblk1
  rw [View.read_apply]
  show V c (Pipeline.arrRef spec1 0) _ = V c (Pipeline.arrRef spec1 0) _
  congr 1
  funext a
  apply Fin.ext
  match a with
  | ⟨0, _⟩ => show win1_0.index t 0 * 2000 + 1 * p.val = r.val; rw [e0, hr]; omega
  | ⟨1, _⟩ => show win1_0.index t 1 * 128 + 1 * k.val = k.val; rw [e1]; omega

/-- The projection's weight block is the weight array. -/
theorem iblk1_1_apply (c : Dev nD) (t : Fin cfg1.N) (k : Fin 128) (q : Fin 128) :
    (iblk1 V c 1 t : Vec Ideal S128x128 .f32) (ix2 k q)
      = (V c (Pipeline.arrRef spec1 1) : S128x128.Idx → EReal) (ix2 k q) := by
  obtain ⟨-, -, e2, e3, -⟩ := idx_facts1 t
  unfold iblk1
  rw [View.read_apply]
  show V c (Pipeline.arrRef spec1 1) _ = V c (Pipeline.arrRef spec1 1) _
  congr 1
  funext a
  apply Fin.ext
  match a with
  | ⟨0, _⟩ => show win1_1.index t 0 * 128 + 1 * k.val = k.val; rw [e2]; omega
  | ⟨1, _⟩ => show win1_1.index t 1 * 128 + 1 * q.val = q.val; rw [e3]; omega

/-- The projection's bias block is the bias array. -/
theorem iblk1_2_apply (c : Dev nD) (t : Fin cfg1.N) (q : Fin 128) :
    (iblk1 V c 2 t : Vec Ideal S128 .f32) (ix1 q)
      = (V c (Pipeline.arrRef spec1 2) : S128.Idx → EReal) (ix1 q) := by
  obtain ⟨-, -, -, -, e4, -⟩ := idx_facts1 t
  unfold iblk1
  rw [View.read_apply]
  show V c (Pipeline.arrRef spec1 2) _ = V c (Pipeline.arrRef spec1 2) _
  congr 1
  funext a
  apply Fin.ext
  match a with
  | ⟨0, _⟩ => show win1_2.index t 0 * 128 + 1 * q.val = q.val; rw [e4]; omega

/-- The tanh layer's weight block is the weight array. -/
theorem iblk1_3_apply (c : Dev nD) (t : Fin cfg1.N) (k : Fin 64) (j : Fin 64) :
    (iblk1 V c 3 t : Vec Ideal S64x64 .f32) (ix2 k j)
      = (V c (Pipeline.arrRef spec1 3) : S64x64.Idx → EReal) (ix2 k j) := by
  obtain ⟨-, -, -, -, -, e5, e6, -⟩ := idx_facts1 t
  unfold iblk1
  rw [View.read_apply]
  show V c (Pipeline.arrRef spec1 3) _ = V c (Pipeline.arrRef spec1 3) _
  congr 1
  funext a
  apply Fin.ext
  match a with
  | ⟨0, _⟩ => show win1_3.index t 0 * 64 + 1 * k.val = k.val; rw [e5]; omega
  | ⟨1, _⟩ => show win1_3.index t 1 * 64 + 1 * j.val = j.val; rw [e6]; omega

/-- The tanh layer's bias block is the bias array. -/
theorem iblk1_4_apply (c : Dev nD) (t : Fin cfg1.N) (j : Fin 64) :
    (iblk1 V c 4 t : Vec Ideal S64 .f32) (ix1 j)
      = (V c (Pipeline.arrRef spec1 4) : S64.Idx → EReal) (ix1 j) := by
  obtain ⟨-, -, -, -, -, -, -, e7, -⟩ := idx_facts1 t
  unfold iblk1
  rw [View.read_apply]
  show V c (Pipeline.arrRef spec1 4) _ = V c (Pipeline.arrRef spec1 4) _
  congr 1
  funext a
  apply Fin.ext
  match a with
  | ⟨0, _⟩ => show win1_4.index t 0 * 64 + 1 * j.val = j.val; rw [e7]; omega

/-- Row `p` of the noise block at point `t` is row `2000 t + p` of the noise array. -/
theorem iblk1_5_apply (c : Dev nD) (t : Fin cfg1.N) (p : Fin 2000) (j : Fin 64) (r : Fin 50000) (hr : r.val = 2000 * t.val + p.val) :
    (iblk1 V c 5 t : Vec Ideal S2000x64 .f32) (ix2 p j)
      = (V c (Pipeline.arrRef spec1 5) : S50000x64.Idx → EReal) (ix2 r j) := by
  obtain ⟨-, -, -, -, -, -, -, -, e8, e9, -⟩ := idx_facts1 t
  unfold iblk1
  rw [View.read_apply]
  show V c (Pipeline.arrRef spec1 5) _ = V c (Pipeline.arrRef spec1 5) _
  congr 1
  funext a
  apply Fin.ext
  match a with
  | ⟨0, _⟩ => show win1_5.index t 0 * 2000 + 1 * p.val = r.val; rw [e8, hr]; omega
  | ⟨1, _⟩ => show win1_5.index t 1 * 64 + 1 * j.val = j.val; rw [e9]; omega

/-! ## Region 1: the body's values over the arrays -/

/-- The projection's block at point `t`, row `p`, is the projection of the arrays at row `2000 t + p`. -/
theorem out1_at (c : Dev nD) (t : Fin cfg1.N) (p : Fin 2000) (q : Fin 128) (r : Fin 50000) (hr : r.val = 2000 * t.val + p.val) :
    k1_pay1 (F := Ideal) (iblk1 V c 0 t) (iblk1 V c 1 t) (iblk1 V c 2 t) (ix2 p q)
      = Gcn.out1 (M := 50000) (V c (Pipeline.arrRef spec1 0)) (V c (Pipeline.arrRef spec1 1)) (V c (Pipeline.arrRef spec1 2)) (ix2 r q) := by
  refine (pay1r_apply (iblk1 V c 0 t) (iblk1 V c 1 t) (iblk1 V c 2 t) p q).trans ?_
  unfold Gcn.out1 Gcn.addRow Gcn.mm
  refine congrArg₂ (fun a b : EReal => a + b) (Finset.sum_congr rfl fun k _ => ?_) (iblk1_2_apply V c t q)
  exact congrArg₂ (fun a b : EReal => a * b) (iblk1_0_apply V c t p k r hr) (iblk1_1_apply V c t k q)

/-- The tanh layer's block at point `t`, row `p`, is the tanh layer of the arrays at row `2000 t + p`. -/
theorem lv1_at (c : Dev nD) (t : Fin cfg1.N) (p : Fin 2000) (j : Fin 64) (r : Fin 50000) (hr : r.val = 2000 * t.val + p.val) :
    k1_pay3 (F := Ideal) (iblk1 V c 0 t) (iblk1 V c 1 t) (iblk1 V c 2 t) (iblk1 V c 3 t) (iblk1 V c 4 t) (ix2 p j)
      = Gcn.lv1 (M := 50000) (V c (Pipeline.arrRef spec1 0)) (V c (Pipeline.arrRef spec1 1)) (V c (Pipeline.arrRef spec1 2))
          (V c (Pipeline.arrRef spec1 3)) (V c (Pipeline.arrRef spec1 4)) (ix2 r j) := by
  refine (pay3_apply (iblk1 V c 0 t) (iblk1 V c 1 t) (iblk1 V c 2 t) (iblk1 V c 3 t) (iblk1 V c 4 t) p j).trans ?_
  unfold Gcn.lv1
  refine congrArg Ideal.tanh (congrArg₂ (fun a b : EReal => a + b) (Finset.sum_congr rfl fun k _ => ?_) (iblk1_4_apply V c t j))
  exact congrArg₂ (fun a b : EReal => a * b) (congrArg (fun z : EReal => max z 0) (out1_at V c t p (Gcn.hi k) r hr)) (iblk1_3_apply V c t k j)

/-- The reparameterisation's block at point `t`, row `p`, is the reparameterisation of the arrays at row `2000 t + p`. -/
theorem z1_at (c : Dev nD) (t : Fin cfg1.N) (p : Fin 2000) (j : Fin 64) (r : Fin 50000) (hr : r.val = 2000 * t.val + p.val) :
    k1_pay4 (F := Ideal) (iblk1 V c 0 t) (iblk1 V c 1 t) (iblk1 V c 2 t) (iblk1 V c 3 t) (iblk1 V c 4 t) (iblk1 V c 5 t) (ix2 p j)
      = Gcn.z1 (M := 50000) (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) (ix2 r j) := by
  refine (pay4_apply (iblk1 V c 0 t) (iblk1 V c 1 t) (iblk1 V c 2 t) (iblk1 V c 3 t) (iblk1 V c 4 t) (iblk1 V c 5 t) p j).trans ?_
  unfold Gcn.z1
  refine congrArg₂ (fun a b : EReal => a + b)
    (congrArg₂ (fun a b : EReal => a * b) (iblk1_5_apply V c t p j r hr)
      (congrArg (fun z : EReal => Ideal.exp (Gcn.half * z)) (lv1_at V c t p j r hr))) ?_
  exact (pay2_apply (iblk1 V c 0 t) (iblk1 V c 1 t) (iblk1 V c 2 t) p j).trans (out1_at V c t p (Gcn.lo j) r hr)

/-! ## Region 1, second output: what a point writes back, the cover, the array -/

/-- The second output's block at point `t`, entry `y`, is the reparameterisation of the arrays at the entry's place
    `i` in the array. -/
theorem point1_7 (c : Dev nD) (t : Fin cfg1.N) (y : S2000x64.Idx) (i : S50000x64.Idx)
    (h0 : (i 0).val = 2000 * t.val + (y 0).val) (h1 : (i 1).val = (y 1).val) :
    out1_7 (iblk1 V c 0 t) (iblk1 V c 1 t) (iblk1 V c 2 t) (iblk1 V c 3 t) (iblk1 V c 4 t) (iblk1 V c 5 t) y
      = Gcn.z1 (M := 50000) (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) i := by
  obtain ⟨p, j, rfl⟩ : ∃ (p : Fin 2000) (j : Fin 64), y = ix2 p j := ⟨y 0, y 1, eq_ix2 y⟩
  obtain ⟨r, s, rfl⟩ : ∃ (r : Fin 50000) (s : Fin 64), i = ix2 r s := ⟨i 0, i 1, eq_ix2 i⟩
  obtain rfl : j = s := (Fin.ext h1).symm
  refine (congrFun (out1_7_eq (iblk1 V c 0 t) (iblk1 V c 1 t) (iblk1 V c 2 t) (iblk1 V c 3 t) (iblk1 V c 4 t) (iblk1 V c 5 t)) (ix2 p j)).trans ?_
  exact z1_at V c t p j r h0

/-- Point `t` writes back block `t` of the reparameterisation of the arrays. -/
theorem flushed1_7_eq (c : Dev nD) (t : Fin cfg1.N) :
    (dat1 (F := Ideal) V c).flushed 7 t = ((cfg1.win 7).blk t).view.read (Elt Ideal)
      (Gcn.z1 (M := 50000) (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))) := by
  show (cfg1.win 7).cut (grid1.coords t) ((dat1 V c).after 7 t) = _
  rw [after1_7]
  obtain ⟨-, -, -, -, -, -, -, -, -, -, -, -, e12, e13⟩ := idx_facts1 t
  funext j
  refine point1_7 V c t j (((cfg1.win 7).blk t).view.emb j) ?_ ?_
  · show win1_7.index t 0 * 2000 + 1 * (j 0).val = 2000 * t.val + (j 0).val; rw [e12]; omega
  · show win1_7.index t 1 * 64 + 1 * (j 1).val = (j 1).val; rw [e13]; omega

/-- An index of the second output array is in point `t`'s block iff each coordinate is in the block's range on its axis. -/
theorem mem_blk1_7 (t : Fin cfg1.N) (i : S50000x64.Idx) :
    i ∈ ((cfg1.win 7).blk t).view.set ↔ ∀ a : Fin 2, win1_7.index t a * S2000x64.size a ≤ (i a).val ∧ (i a).val < win1_7.index t a * S2000x64.size a + S2000x64.size a := by
  show i ∈ ((View.whole main_v61_1).slice (win1_7.rect t)).set ↔ _
  rw [View.set_slice_whole, Rect.mem_set_unit]
  exact Iff.rfl

/-- Every row lies in the block of the point `row / 2000`. -/
theorem covered1_7 (i : S50000x64.Idx) : ∃ t : Fin cfg1.N, (cfg1.win 7).flush t = true ∧ i ∈ ((cfg1.win 7).blk t).view.set := by
  have hi0 : (i 0).val < 50000 := idx2_lt0 i
  have hi1 : (i 1).val < 64 := idx2_lt1 i
  have hN : cfg1.N = 25 := N_1
  refine ⟨⟨(i 0).val / 2000, by rw [hN]; omega⟩, flush1_7 _, ?_⟩
  rw [mem_blk1_7]
  obtain ⟨-, -, -, -, -, -, -, -, -, -, -, -, e12, e13⟩ := idx_facts1 ⟨(i 0).val / 2000, by rw [hN]; omega⟩
  intro a
  match a with
  | ⟨0, _⟩ =>
    show win1_7.index _ 0 * 2000 ≤ (i 0).val ∧ (i 0).val < win1_7.index _ 0 * 2000 + 2000
    rw [e12]; show (i 0).val / 2000 * 2000 ≤ (i 0).val ∧ (i 0).val < (i 0).val / 2000 * 2000 + 2000; omega
  | ⟨1, _⟩ =>
    show win1_7.index _ 1 * 64 ≤ (i 1).val ∧ (i 1).val < win1_7.index _ 1 * 64 + 64
    rw [e13]; omega

theorem arr1_7 (c : Dev nD) :
    (dat1 (F := Ideal) V c).arrAt 7 cfg1.N
      = Gcn.z1 (M := 50000) (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) :=
  (dat1 (F := Ideal) V c).arrAt_eq_of_cover 7 _ (fun t _ => flushed1_7_eq V c t) covered1_7

/-! ## Region 1, first output: what a point writes back, the cover, the array -/

/-- The first output's block at point `t`, entry `y`, is the first output of the arrays at the entry's place `i` in
    the array: the projection left of column 64, the tanh layer from there on. -/
theorem point1_6 (c : Dev nD) (t : Fin cfg1.N) (y : S2000x128.Idx) (i : S50000x128.Idx)
    (h0 : (i 0).val = 2000 * t.val + (y 0).val) (h1 : (i 1).val = (y 1).val) :
    out1_6 (iblk1 V c 0 t) (iblk1 V c 1 t) (iblk1 V c 2 t) (iblk1 V c 3 t) (iblk1 V c 4 t) (iblk1 V c 5 t) y
      = Gcn.mlv1 (M := 50000) (V c (Pipeline.arrRef spec1 0)) (V c (Pipeline.arrRef spec1 1)) (V c (Pipeline.arrRef spec1 2))
          (V c (Pipeline.arrRef spec1 3)) (V c (Pipeline.arrRef spec1 4)) i := by
  obtain ⟨p, q, rfl⟩ : ∃ (p : Fin 2000) (q : Fin 128), y = ix2 p q := ⟨y 0, y 1, eq_ix2 y⟩
  obtain ⟨r, s, rfl⟩ : ∃ (r : Fin 50000) (s : Fin 128), i = ix2 r s := ⟨i 0, i 1, eq_ix2 i⟩
  obtain rfl : q = s := (Fin.ext h1).symm
  by_cases hq : q.val < 64
  · refine (out1_6_lo (iblk1 V c 0 t) (iblk1 V c 1 t) (iblk1 V c 2 t) (iblk1 V c 3 t) (iblk1 V c 4 t) (iblk1 V c 5 t) p q hq).trans ?_
    refine ((pay2_apply (iblk1 V c 0 t) (iblk1 V c 1 t) (iblk1 V c 2 t) p ⟨q.val, hq⟩).trans ?_).trans (mlv1_lo _ _ _ _ _ r q hq).symm
    have e := out1_at V c t p (Gcn.lo ⟨q.val, hq⟩) r h0
    rw [show Gcn.lo ⟨q.val, hq⟩ = q from Fin.ext rfl] at e
    exact e
  · refine (out1_6_hi (iblk1 V c 0 t) (iblk1 V c 1 t) (iblk1 V c 2 t) (iblk1 V c 3 t) (iblk1 V c 4 t) (iblk1 V c 5 t) p q hq).trans ?_
    exact (lv1_at V c t p ⟨q.val - 64, by have := q.isLt; omega⟩ r h0).trans (mlv1_hi _ _ _ _ _ r q hq).symm

/-- Point `t` writes back block `t` of the first output of the arrays. -/
theorem flushed1_6_eq (c : Dev nD) (t : Fin cfg1.N) :
    (dat1 (F := Ideal) V c).flushed 6 t = ((cfg1.win 6).blk t).view.read (Elt Ideal)
      (Gcn.mlv1 (M := 50000) (V c (Pipeline.arrRef spec1 0)) (V c (Pipeline.arrRef spec1 1)) (V c (Pipeline.arrRef spec1 2))
          (V c (Pipeline.arrRef spec1 3)) (V c (Pipeline.arrRef spec1 4))) := by
  show (cfg1.win 6).cut (grid1.coords t) ((dat1 V c).after 6 t) = _
  rw [after1_6]
  obtain ⟨-, -, -, -, -, -, -, -, -, -, e10, e11, -⟩ := idx_facts1 t
  funext j
  refine point1_6 V c t j (((cfg1.win 6).blk t).view.emb j) ?_ ?_
  · show win1_6.index t 0 * 2000 + 1 * (j 0).val = 2000 * t.val + (j 0).val; rw [e10]; omega
  · show win1_6.index t 1 * 128 + 1 * (j 1).val = (j 1).val; rw [e11]; omega

/-- An index of the first output array is in point `t`'s block iff each coordinate is in the block's range on its axis. -/
theorem mem_blk1_6 (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v61_0).slice (win1_6.rect t)).set ↔ _
  rw [View.set_slice_whole, Rect.mem_set_unit]
  exact Iff.rfl

/-- Every row lies in the block of the point `row / 2000`. -/
theorem covered1_6 (i : S50000x128.Idx) : ∃ t : Fin cfg1.N, (cfg1.win 6).flush t = true ∧ i ∈ ((cfg1.win 6).blk t).view.set := by
  have hi0 : (i 0).val < 50000 := idx2_lt0 i
  have hi1 : (i 1).val < 128 := idx2_lt1 i
  have hN : cfg1.N = 25 := N_1
  refine ⟨⟨(i 0).val / 2000, by rw [hN]; omega⟩, flush1_6 _, ?_⟩
  rw [mem_blk1_6]
  obtain ⟨-, -, -, -, -, -, -, -, -, -, e10, e11, -⟩ := idx_facts1 ⟨(i 0).val / 2000, by rw [hN]; omega⟩
  intro a
  match a with
  | ⟨0, _⟩ =>
    show win1_6.index _ 0 * 2000 ≤ (i 0).val ∧ (i 0).val < win1_6.index _ 0 * 2000 + 2000
    rw [e10]; show (i 0).val / 2000 * 2000 ≤ (i 0).val ∧ (i 0).val < (i 0).val / 2000 * 2000 + 2000; omega
  | ⟨1, _⟩ =>
    show win1_6.index _ 1 * 128 ≤ (i 1).val ∧ (i 1).val < win1_6.index _ 1 * 128 + 128
    rw [e11]; omega

theorem arr1_6 (c : Dev nD) :
    (dat1 (F := Ideal) V c).arrAt 6 cfg1.N
      = Gcn.mlv1 (M := 50000) (V c (Pipeline.arrRef spec1 0)) (V c (Pipeline.arrRef spec1 1)) (V c (Pipeline.arrRef spec1 2))
          (V c (Pipeline.arrRef spec1 3)) (V c (Pipeline.arrRef spec1 4)) :=
  (dat1 (F := Ideal) V c).arrAt_eq_of_cover 6 _ (fun t _ => flushed1_6_eq V c t) covered1_6

end Cert.KernelIdeal.RegValue

end
-- ==== Proof.AggStage.lean ====
/-
  One aggregation over the edge list, as the operations spell it, is the specification's aggregated table.

  The operations: gather the rows of a node table `f : [N, D]` at the edges' source ids (`[E, D]`), multiply each gathered
  row by its edge's weight (the weight vector `[E]` broadcast to a column `[E, 1]` and then along the row to `[E, D]`),
  and accumulate the products into a table of zeros `[N, D]` at the edges' target ids.

  Read at `(r, j)`: the zero operand contributes `0`; the accumulating scatter adds, over the edges whose target id read as
  a signed integer is `r`, the update row's entry `j`; that entry is the gathered row's entry `j` — the table's row named by
  the source id, read signed and clamped into the table — times the edge's weight. An edge whose target id is no row adds
  nothing. This is `Gcn.aggAt`, entry by entry. Generic in the extents and in the operations' shape side conditions.
-/
import Idealize.ShloMosaic.Lib.Pipeline.Value
import Idealize.ShloMosaic.Lib.ValueIdx
import Idealize.ShloMosaic.PureOps.Ideal.Laws
import proofs.«419545_j24842090840532_3_alg».proof.Proof.LibRowScatter
import proofs.«419545_j24842090840532_3_alg».proof.Proof.Spec

noncomputable section

open scoped BigOperators

namespace Gcn

open Idealize.ShloMosaic Idealize.ShloMosaic.ValueIdx Idealize.ShloMosaic.RowScatter

/-- AN AGGREGATION STAGE IS THE SPECIFICATION'S AGGREGATED TABLE. Entry `(r, j)` of the accumulating row scatter into zeros
    is `0` plus the sum, over the edges whose target id is `r`, of the update row's entry `j`; the update row of edge `e` is
    the gathered row of `f` (the row the source id names, read signed and clamped) times the edge's weight `nrm e`, which
    the two broadcasts `[E] → [E, 1] → [E, D]` copy along the row. -/
theorem agg_stage {N D E : Nat} (hN : 0 < N)
    (swf : ScatterDims.WF ⟨2, ![N, D]⟩ ⟨2, ![E, 1]⟩ ⟨2, ![E, D]⟩ [1] [0] [0] 1)
    (gwf : GatherDims.WF ⟨2, ![N, D]⟩ ⟨2, ![E, 1]⟩ ⟨2, ![E, D]⟩ [1] [0] [] [0] [] 1 ![1, D])
    (b0 : (⟨0, ![]⟩ : Shape).BroadcastsInDim ⟨2, ![N, D]⟩ (![] : Fin 0 → Fin 2))
    (bE1 : (⟨1, ![E]⟩ : Shape).BroadcastsInDim ⟨2, ![E, 1]⟩ (![0] : Fin 1 → Fin 2))
    (bED : (⟨2, ![E, 1]⟩ : Shape).BroadcastsInDim ⟨2, ![E, D]⟩ (![0, 1] : Fin 2 → Fin 2))
    (f : FVec Ideal ⟨2, ![N, D]⟩ .f32) (srcI dstI : IVec ⟨2, ![E, 1]⟩ 32) (nrm : FVec Ideal ⟨1, ![E]⟩ .f32) :
    Host.scatterAdd (F := Ideal) (scatterRows N D E swf)
        (broadcastInDim ⟨2, ![N, D]⟩ ![] b0 (constant (F := Ideal) ⟨0, ![]⟩ .f32 0x00000000#32)) dstI
        (mulf (Host.gather (gatherRows N D E gwf) f srcI)
          (broadcastInDim ⟨2, ![E, D]⟩ ![0, 1] bED (broadcastInDim ⟨2, ![E, 1]⟩ ![0] bE1 nrm)))
      = Gcn.agg hN srcI dstI nrm f := by
  funext i
  obtain ⟨r, j, rfl⟩ : ∃ (r : Fin N) (j : Fin D), i = ix2 r j := ⟨i 0, i 1, eq_ix2 i⟩
  show Ideal.hostScatterAdd (scatterRows N D E swf) _ dstI _ (ix2 r j) = Gcn.aggAt hN srcI dstI nrm f r j
  rw [scatterAdd_rows_apply]
  unfold Gcn.aggAt
  congr 1
  · -- the operand: the zero literal broadcast to the table
    rw [broadcastInDim_apply ![] b0 _ (ix2 r j) ix0 (fun a => a.elim0), constant_apply, Ideal.ofBits_zero_f32]
  · -- the updates, edge by edge
    refine Finset.sum_congr rfl fun e _ => ?_
    refine if_congr Iff.rfl ?_ rfl
    -- the weight, broadcast along the row: entry `(e, j)` of `[E, D]` is entry `(e, 0)` of the column …
    have h1 : broadcastInDim ⟨2, ![E, D]⟩ ![0, 1] bED (broadcastInDim ⟨2, ![E, 1]⟩ ![0] bE1 nrm) (ix2 e j)
        = broadcastInDim ⟨2, ![E, 1]⟩ ![0] bE1 nrm (ix2 e 0) :=
      broadcastInDim_apply _ bED _ (ix2 e j) (ix2 e 0) (fun a => match a with
        | ⟨0, _⟩ => by
          have := e.isLt
          show e.val = if E = 1 then 0 else e.val
          split <;> omega
        | ⟨1, _⟩ => by show 0 = if (1 : Nat) = 1 then 0 else j.val; rw [if_pos rfl])
    -- … which is entry `e` of the weight vector
    have h2 : broadcastInDim ⟨2, ![E, 1]⟩ ![0] bE1 nrm (ix2 e 0) = nrm (ix1 e) :=
      broadcastInDim_apply _ bE1 nrm (ix2 e 0) (ix1 e) (fun a => match a with
        | ⟨0, _⟩ => by
          have := e.isLt
          show e.val = if E = 1 then 0 else e.val
          split <;> omega)
    rw [mulf_apply, gather_rows_apply hN, h1, h2]

end Gcn

end
-- ==== Proof.KValue.lean ====
/-
  What the kernel program's three result arrays hold, as functions of the arguments.

  The run ends with each result buffer at the last boundary's contents. Walking the fold back: the two column slices read
  the second region's first output; each region's output array is a whole-array function of its input arrays; the
  regions' first inputs are the host's aggregations (a row gather, a product with the edge weights, an accumulating row
  scatter), of the features for the first region and of the first region's output for the second; the other inputs are
  arguments, the two concatenations among them. Together: the specification's `meanK`, `logvarK`, `zK` of the arguments.
-/
import proofs.«419545_j24842090840532_3_alg».proof.Proof.KernelRun
import proofs.«419545_j24842090840532_3_alg».proof.Proof.KHost
import proofs.«419545_j24842090840532_3_alg».proof.Proof.KReg
import proofs.«419545_j24842090840532_3_alg».proof.Proof.AggStage

noncomputable section

open scoped BigOperators

namespace Cert.KernelIdeal.KValue

open Cert.KernelIdeal Cert.KernelIdeal.Gen Cert.KernelIdeal.HostValue Cert.KernelIdeal.RegValue
open Idealize.ShloMosaic Idealize.ShloMosaic.TcCoe Idealize.SL.Sem Idealize.ShloMosaic.ValueIdx

variable (m : (ℓ : Loc nD τ sig) → Buf (Elt Ideal) ℓ) (ρ : Dev nD → PrngReg)

/-- The edge list's three readings, of this program's `edge_index` argument. -/
abbrev srcK (c : Dev nD) : IVec Gcn.SE1 32 := Gcn.srcIdx wK (m ((c.tc : Thread nD τ).loc main_arg1))
abbrev dstK (c : Dev nD) : IVec Gcn.SE1 32 := Gcn.dstIdx wK (m ((c.tc : Thread nD τ).loc main_arg1))
abbrev nrmK (c : Dev nD) : FVec Ideal Gcn.SE .f32 := Gcn.nrm (F := Ideal) wK (m ((c.tc : Thread nD τ).loc main_arg1))

/-- The host's aggregation of a table is the specification's. -/
theorem aggTerm_eq (c : Dev nD) (f : FVec Ideal S50000x128 .f32) :
    aggTerm m c f = Gcn.agg (N := 50000) (E := 850000) (by decide) (srcK m c) (dstK m c) (nrmK m c) f :=
  Gcn.agg_stage (N := 50000) (D := 128) (E := 850000) (by decide)
    scatter_S50000x128_S850000x1_S850000x128_1_0_0_1_wf gather_S50000x128_S850000x1_S850000x128_1_0_n_n_0_1_1128_wf
    bcast_S_S50000x128 bcast_S850000_S850000x1_0 bcast_S850000x1_S850000x128_0_1 f (srcK m c) (dstK m c) (nrmK m c)

/-- The first region's output array is the specification's hidden layer of the arguments. -/
theorem W4_v45 (c : Dev nD) :
    W4 m ρ c (Proc.devRef .tc main_v45)
      = Gcn.hidK (N := 50000) (E := 850000) (by decide) (srcK m c) (dstK m c) (nrmK m c)
          (m ((c.tc : Thread nD τ).loc main_arg0)) (m ((c.tc : Thread nD τ).loc main_arg3)) (m ((c.tc : Thread nD τ).loc main_arg4)) := by
  have e0 : V3 m ρ c (Pipeline.arrRef spec0 0) = Gcn.agg (N := 50000) (E := 850000) (by decide) (srcK m c) (dstK m c) (nrmK m c)
      (m ((c.tc : Thread nD τ).loc main_arg0)) := (W3_v44 m ρ c).trans (aggTerm_eq m c _)
  have e1 : V3 m ρ c (Pipeline.arrRef spec0 1) = m ((c.tc : Thread nD τ).loc main_arg3) := W3_arg3 m ρ c
  have e2 : V3 m ρ c (Pipeline.arrRef spec0 2) = m ((c.tc : Thread nD τ).loc main_arg4) := W3_arg4 m ρ c
  refine (W4_arr m ρ c 3).trans ((arr0_3 (V3 m ρ) c).trans ?_)
  rw [e0, e1, e2]
  rfl

/-- The second region's two output arrays are the specification's functions of the arguments. -/
theorem W6_v61_0 (c : Dev nD) :
    W6 m ρ c (Proc.devRef .tc main_v61_0)
      = Gcn.mlv1 (M := 50000)
          (Gcn.aggHidK (N := 50000) (E := 850000) (by decide) (srcK m c) (dstK m c) (nrmK m c)
            (m ((c.tc : Thread nD τ).loc main_arg0)) (m ((c.tc : Thread nD τ).loc main_arg3)) (m ((c.tc : Thread nD τ).loc main_arg4)))
          (Gcn.catCols (K := 128) (m ((c.tc : Thread nD τ).loc main_arg5)) (m ((c.tc : Thread nD τ).loc main_arg7)))
          (Gcn.cat (m ((c.tc : Thread nD τ).loc main_arg6)) (m ((c.tc : Thread nD τ).loc main_arg8)))
          (m ((c.tc : Thread nD τ).loc main_arg9)) (m ((c.tc : Thread nD τ).loc main_arg10)) := by
  have e0 : V5 m ρ c (Pipeline.arrRef spec1 0) = Gcn.aggHidK (N := 50000) (E := 850000) (by decide) (srcK m c) (dstK m c) (nrmK m c)
      (m ((c.tc : Thread nD τ).loc main_arg0)) (m ((c.tc : Thread nD τ).loc main_arg3)) (m ((c.tc : Thread nD τ).loc main_arg4)) := by
    refine (W5_v58 m ρ c).trans ((aggTerm_eq m c _).trans ?_)
    rw [W4_v45 m ρ c]
    rfl
  have e1 : V5 m ρ c (Pipeline.arrRef spec1 1) = _ := W5_v59 m ρ c
  have e2 : V5 m ρ c (Pipeline.arrRef spec1 2) = _ := W5_v60 m ρ c
  have e3 : V5 m ρ c (Pipeline.arrRef spec1 3) = _ := W5_arg9 m ρ c
  have e4 : V5 m ρ c (Pipeline.arrRef spec1 4) = _ := W5_arg10 m ρ c
  refine (W6_arr m ρ c 6).trans ((arr1_6 (V5 m ρ) c).trans ?_)
  rw [e0, e1, e2, e3, e4]

theorem W6_v61_1 (c : Dev nD) :
    W6 m ρ c (Proc.devRef .tc main_v61_1)
      = Gcn.zK (N := 50000) (E := 850000) (by decide) (srcK m c) (dstK m c) (nrmK m c)
          (m ((c.tc : Thread nD τ).loc main_arg0)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8))
          (m ((c.tc : Thread nD τ).loc main_arg9)) (m ((c.tc : Thread nD τ).loc main_arg10)) := by
  have e0 : V5 m ρ c (Pipeline.arrRef spec1 0) = Gcn.aggHidK (N := 50000) (E := 850000) (by decide) (srcK m c) (dstK m c) (nrmK m c)
      (m ((c.tc : Thread nD τ).loc main_arg0)) (m ((c.tc : Thread nD τ).loc main_arg3)) (m ((c.tc : Thread nD τ).loc main_arg4)) := by
    refine (W5_v58 m ρ c).trans ((aggTerm_eq m c _).trans ?_)
    rw [W4_v45 m ρ c]
    rfl
  have e1 : V5 m ρ c (Pipeline.arrRef spec1 1) = _ := W5_v59 m ρ c
  have e2 : V5 m ρ c (Pipeline.arrRef spec1 2) = _ := W5_v60 m ρ c
  have e3 : V5 m ρ c (Pipeline.arrRef spec1 3) = _ := W5_arg9 m ρ c
  have e4 : V5 m ρ c (Pipeline.arrRef spec1 4) = _ := W5_arg10 m ρ c
  have e5 : V5 m ρ c (Pipeline.arrRef spec1 5) = _ := W5_arg2 m ρ c
  refine (W6_arr m ρ c 7).trans ((arr1_7 (V5 m ρ) c).trans ?_)
  rw [e0, e1, e2, e3, e4, e5]
  rfl

/-- THE KERNEL'S RUN: every weakly fair execution terminates with the three results at the specification's
    `meanK`, `logvarK`, `zK` of the arguments, the arguments unchanged. -/
theorem run :
    θ_run defs (onTc (τ := τ) (main (F := Ideal))) ⟨m, fun _ => 0, ρ⟩ (fun r => ∀ c : Dev nD,
      r.2.mem ((c.tc : Thread nD τ).loc main_v62)
          = Gcn.meanK (N := 50000) (E := 850000) (by decide) (srcK m c) (dstK m c) (nrmK m c)
              (m ((c.tc : Thread nD τ).loc main_arg0)) (m ((c.tc : Thread nD τ).loc main_arg3)) (m ((c.tc : Thread nD τ).loc main_arg4))
              (m ((c.tc : Thread nD τ).loc main_arg5)) (m ((c.tc : Thread nD τ).loc main_arg6))
              (m ((c.tc : Thread nD τ).loc main_arg7)) (m ((c.tc : Thread nD τ).loc main_arg8))
              (m ((c.tc : Thread nD τ).loc main_arg9)) (m ((c.tc : Thread nD τ).loc main_arg10))
      ∧ r.2.mem ((c.tc : Thread nD τ).loc main_v63)
          = Gcn.logvarK (N := 50000) (E := 850000) (by decide) (srcK m c) (dstK m c) (nrmK m c)
              (m ((c.tc : Thread nD τ).loc main_arg0)) (m ((c.tc : Thread nD τ).loc main_arg3)) (m ((c.tc : Thread nD τ).loc main_arg4))
              (m ((c.tc : Thread nD τ).loc main_arg5)) (m ((c.tc : Thread nD τ).loc main_arg6))
              (m ((c.tc : Thread nD τ).loc main_arg7)) (m ((c.tc : Thread nD τ).loc main_arg8))
              (m ((c.tc : Thread nD τ).loc main_arg9)) (m ((c.tc : Thread nD τ).loc main_arg10))
      ∧ r.2.mem ((c.tc : Thread nD τ).loc main_v61_1)
          = Gcn.zK (N := 50000) (E := 850000) (by decide) (srcK m c) (dstK m c) (nrmK m c)
              (m ((c.tc : Thread nD τ).loc main_arg0)) (m ((c.tc : Thread nD τ).loc main_arg2))
              (m ((c.tc : Thread nD τ).loc main_arg3)) (m ((c.tc : Thread nD τ).loc main_arg4))
              (m ((c.tc : Thread nD τ).loc main_arg5)) (m ((c.tc : Thread nD τ).loc main_arg6))
              (m ((c.tc : Thread nD τ).loc main_arg7)) (m ((c.tc : Thread nD τ).loc main_arg8))
              (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => by
    obtain ⟨h62, h63, h61, hargs⟩ := h c
    refine ⟨h62.trans ?_, h63.trans ?_, h61.trans ((W7_v61_1 m ρ c).trans (W6_v61_1 m ρ c)), hargs⟩
    · rw [W7_v62 m ρ c, W6_v61_0 m ρ c]; rfl
    · rw [W7_v63 m ρ c, W6_v61_0 m ρ c]; rfl) (run_results (F := Ideal) m ρ)

end Cert.KernelIdeal.KValue

end
-- ==== Proof.RefValue.lean ====
/-
  The reference program's three results, as whole arrays, are the specification's functions of the arguments.

  The reference is `hid = relu (agg (x·W1) + b1)`, `mean = agg (hid·Wm) + bm`,
  `logvar = tanh (relu (agg (hid·Wv) + bv)·Wl + bl)`, `z = noise · exp (½ · logvar) + mean`, where `agg` aggregates a node
  table over the edge list. Its operations are read group by group: the edge-list chains (source ids, target ids, the
  per-edge weight) are the specification's own chains; an aggregation — rows gathered at the source ids, scaled by the
  weight, accumulated at the target ids into zeros — is `Gcn.agg`; a broadcast bias added is `Gcn.addRow`; a maximum with
  the zero constant is `Gcn.relu`; a `dot_general` is `Gcn.mm`. The hyperbolic tangent and the exponential are the
  extended reals' own, applied entry by entry, and the literal `0.5` is the specification's `half`.
-/
import proofs.«419545_j24842090840532_3_alg».proof.Proof.RefRead
import proofs.«419545_j24842090840532_3_alg».proof.Proof.AggStage
import proofs.«419545_j24842090840532_3_alg».proof.Proof.Spec
import proofs.«419545_j24842090840532_3_alg».proof.Proof.EdgeData
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.ReadP Idealize.ShloMosaic Idealize.ShloMosaic.TcCoe
open Idealize.ShloMosaic.ValueIdx Idealize.ShloMosaic.RowScatter

/-- The side conditions of the operations that read the edge list, from this program's stated facts. -/
theorem wR : Gcn.Wit :=
  ⟨slices_S2x800000_S1x800000_0_0, slices_S2x800000_S1x800000_1_0, shapeCasts_S1x800000_S800000,
    concatenates_S800000_S50000_S850000_d0, bcast_S_S850000, bcast_S_S50000, bcast_S850000_S850000x1_0,
    scatter_S50000_S850000x1_S850000_n_0_0_1_wf, gather_S50000_S850000x1_S850000_n_0_n_n_0_1_1_wf⟩

/-- The node table has a row. -/
theorem hN : 0 < 50000 := by decide

/-! ## The stages, generic in the extents

Each lemma reads one group of operations as a whole array: a bias row added to every row, a maximum with zero, a matrix
product. (The aggregation — rows gathered at the source ids, scaled by the edge weight, accumulated at the target ids into
zeros — is `Gcn.agg_stage`.) -/

/-- A bias vector broadcast to one row and then to every row, added: the specification's `addRow`. -/
theorem addRow_stage {M J : Nat} (hJ : J ≠ 1)
    (b1 : (⟨1, ![J]⟩ : Shape).BroadcastsInDim ⟨2, ![1, J]⟩ (![1] : Fin 1 → Fin 2))
    (b2 : (⟨2, ![1, J]⟩ : Shape).BroadcastsInDim ⟨2, ![M, J]⟩ (![0, 1] : Fin 2 → Fin 2))
    (Y : FVec Ideal ⟨2, ![M, J]⟩ .f32) (b : FVec Ideal ⟨1, ![J]⟩ .f32) :
    addf Y (broadcastInDim ⟨2, ![M, J]⟩ ![0, 1] b2 (broadcastInDim ⟨2, ![1, J]⟩ ![1] b1 b)) = Gcn.addRow Y b := by
  funext i
  obtain ⟨r, j, rfl⟩ : ∃ (r : Fin M) (j : Fin J), i = ix2 r j := ⟨i 0, i 1, eq_ix2 i⟩
  have h1 : broadcastInDim ⟨2, ![M, J]⟩ ![0, 1] b2 (broadcastInDim ⟨2, ![1, J]⟩ ![1] b1 b) (ix2 r j)
      = broadcastInDim ⟨2, ![1, J]⟩ ![1] b1 b (ix2 0 j) :=
    broadcastInDim_apply _ b2 _ (ix2 r j) (ix2 0 j) (fun a => match a with
      | ⟨0, _⟩ => by show 0 = if (1 : Nat) = 1 then 0 else r.val; rw [if_pos rfl]
      | ⟨1, _⟩ => by show j.val = if J = 1 then 0 else j.val; rw [if_neg hJ])
  have h2 : broadcastInDim ⟨2, ![1, J]⟩ ![1] b1 b (ix2 0 j) = b (ix1 j) :=
    broadcastInDim_apply _ b1 b (ix2 0 j) (ix1 j) (fun a => match a with
      | ⟨0, _⟩ => by show j.val = if J = 1 then 0 else j.val; rw [if_neg hJ])
  rw [addf_apply, h1, h2]
  rfl

/-- A maximum with the broadcast zero constant: the specification's `relu`. -/
theorem relu_stage {S : Shape} (b0 : (⟨0, ![]⟩ : Shape).BroadcastsInDim S (![] : Fin 0 → Fin S.rank))
    (Y : FVec Ideal S .f32) :
    maximumf Y (broadcastInDim S ![] b0 (constant (F := Ideal) ⟨0, ![]⟩ .f32 0x00000000#32)) = Gcn.relu Y := by
  funext i
  rw [maximumf_apply, broadcastInDim_apply ![] b0 _ i ix0 (fun a => a.elim0), constant_apply, Ideal.ofBits_zero_f32]
  rfl

/-! ## The same stages in this program's own records -/

/-- The 128-wide aggregation. -/
theorem agg128 (f : (⟨S50000x128, .f32⟩ : BufTy).Contents (Elt Ideal)) (srcI dstI : (⟨S850000x1, .i32⟩ : BufTy).Contents (Elt Ideal))
    (nrm : (⟨S850000, .f32⟩ : BufTy).Contents (Elt Ideal)) :
    Host.scatterAdd scatter_S50000x128_S850000x1_S850000x128_1_0_0_1
        (broadcastInDim S50000x128 ![] bcast_S_S50000x128 (constant (F := Ideal) S_ .f32 0x00000000#32)) dstI
        (mulf (Host.gather gather_S50000x128_S850000x1_S850000x128_1_0_n_n_0_1_1128 f srcI)
          (broadcastInDim S850000x128 ![0, 1] bcast_S850000x1_S850000x128_0_1 (broadcastInDim S850000x1 ![0] bcast_S850000_S850000x1_0 nrm)))
      = Gcn.agg hN srcI dstI nrm f :=
  Gcn.agg_stage (N := 50000) (D := 128) (E := 850000) hN scatter_S50000x128_S850000x1_S850000x128_1_0_0_1_wf
    gather_S50000x128_S850000x1_S850000x128_1_0_n_n_0_1_1128_wf bcast_S_S50000x128 bcast_S850000_S850000x1_0
    bcast_S850000x1_S850000x128_0_1 f srcI dstI nrm

/-- The 64-wide aggregation. -/
theorem agg64 (f : (⟨S50000x64, .f32⟩ : BufTy).Contents (Elt Ideal)) (srcI dstI : (⟨S850000x1, .i32⟩ : BufTy).Contents (Elt Ideal))
    (nrm : (⟨S850000, .f32⟩ : BufTy).Contents (Elt Ideal)) :
    Host.scatterAdd scatter_S50000x64_S850000x1_S850000x64_1_0_0_1
        (broadcastInDim S50000x64 ![] bcast_S_S50000x64 (constant (F := Ideal) S_ .f32 0x00000000#32)) dstI
        (mulf (Host.gather gather_S50000x64_S850000x1_S850000x64_1_0_n_n_0_1_164 f srcI)
          (broadcastInDim S850000x64 ![0, 1] bcast_S850000x1_S850000x64_0_1 (broadcastInDim S850000x1 ![0] bcast_S850000_S850000x1_0 nrm)))
      = Gcn.agg hN srcI dstI nrm f :=
  Gcn.agg_stage (N := 50000) (D := 64) (E := 850000) hN scatter_S50000x64_S850000x1_S850000x64_1_0_0_1_wf
    gather_S50000x64_S850000x1_S850000x64_1_0_n_n_0_1_164_wf bcast_S_S50000x64 bcast_S850000_S850000x1_0
    bcast_S850000x1_S850000x64_0_1 f srcI dstI nrm

/-- The 128-wide bias row. -/
theorem addRow128 (Y : (⟨S50000x128, .f32⟩ : BufTy).Contents (Elt Ideal)) (b : (⟨S128, .f32⟩ : BufTy).Contents (Elt Ideal)) :
    (addf Y (broadcastInDim S50000x128 ![0, 1] bcast_S1x128_S50000x128_0_1 (broadcastInDim S1x128 ![1] bcast_S128_S1x128_1 b))
        : FVec Ideal S50000x128 .f32) = Gcn.addRow Y b :=
  addRow_stage (M := 50000) (J := 128) (by decide) bcast_S128_S1x128_1 bcast_S1x128_S50000x128_0_1 Y b

/-- The 64-wide bias row. -/
theorem addRow64 (Y : (⟨S50000x64, .f32⟩ : BufTy).Contents (Elt Ideal)) (b : (⟨S64, .f32⟩ : BufTy).Contents (Elt Ideal)) :
    (addf Y (broadcastInDim S50000x64 ![0, 1] bcast_S1x64_S50000x64_0_1 (broadcastInDim S1x64 ![1] bcast_S64_S1x64_1 b))
        : FVec Ideal S50000x64 .f32) = Gcn.addRow Y b :=
  addRow_stage (M := 50000) (J := 64) (by decide) bcast_S64_S1x64_1 bcast_S1x64_S50000x64_0_1 Y b

/-- The 128-wide positive part. -/
theorem relu128 (Y : (⟨S50000x128, .f32⟩ : BufTy).Contents (Elt Ideal)) :
    maximumf Y (broadcastInDim S50000x128 ![] bcast_S_S50000x128 (constant (F := Ideal) S_ .f32 0x00000000#32)) = Gcn.relu Y :=
  relu_stage bcast_S_S50000x128 Y

/-- The 64-wide positive part. -/
theorem relu64 (Y : (⟨S50000x64, .f32⟩ : BufTy).Contents (Elt Ideal)) :
    maximumf Y (broadcastInDim S50000x64 ![] bcast_S_S50000x64 (constant (F := Ideal) S_ .f32 0x00000000#32)) = Gcn.relu Y :=
  relu_stage bcast_S_S50000x64 Y

/-- A matrix product read at an index as a sum over the contracted coordinate, with the two operands' index maps given
    by their values at explicit coordinates, is the specification's `mm`. -/
theorem mm_of_apply {M K J : Nat} (X : (⟨2, ![M, K]⟩ : Shape).Idx → EReal) (W : (⟨2, ![K, J]⟩ : Shape).Idx → EReal)
    (V : (⟨2, ![M, J]⟩ : Shape).Idx → EReal)
    (lidx : (⟨2, ![M, J]⟩ : Shape).Idx → Fin K → (⟨2, ![M, K]⟩ : Shape).Idx)
    (ridx : (⟨2, ![M, J]⟩ : Shape).Idx → Fin K → (⟨2, ![K, J]⟩ : Shape).Idx)
    (hl : ∀ (r : Fin M) (j : Fin J) (k : Fin K), lidx (ix2 r j) k = ix2 r k)
    (hr : ∀ (r : Fin M) (j : Fin J) (k : Fin K), ridx (ix2 r j) k = ix2 k j)
    (h : ∀ i, V i = ∑ k : Fin K, X (lidx i k) * W (ridx i k)) : V = Gcn.mm X W := by
  funext i
  obtain ⟨r, j, rfl⟩ : ∃ (r : Fin M) (j : Fin J), i = ix2 r j := ⟨i 0, i 1, eq_ix2 i⟩
  rw [h]
  show _ = ∑ k : Fin K, X (ix2 r k) * W (ix2 k j)
  refine Finset.sum_congr rfl fun k _ => ?_
  rw [hl, hr]

/-! ## The edge data

The operations that read the edge list are the specification's chains, up to the (proof-irrelevant) side conditions:
the same operations applied to the same argument. Stated at any float instance; the id chains do not depend on it. -/

section Edge
variable {F : FTy → Type} [FloatOps F] (e1 : (⟨S2x800000, .i32⟩ : BufTy).Contents (Elt F))

/-- The wrapped source ids, as the first aggregation reads them. -/
theorem src38 : val_main_v38 (F := F) e1 = Gcn.srcIdx wR e1 := by
  unfold val_main_v38 val_main_v37 val_main_v34 val_main_v36 val_main_v33 val_main_v35 val_main_c_7 val_main_c_8
    val_main_v5 val_main_v1 val_main_v0 val_main_v4
  unfold Gcn.srcIdx Gcn.wrapCol Gcn.idsRow0
  rfl

/-- The same, as the second aggregation reads them. -/
theorem src56 : val_main_v56 (F := F) e1 = Gcn.srcIdx wR e1 := by
  unfold val_main_v56 val_main_v55 val_main_v52 val_main_v54 val_main_v51 val_main_v53 val_main_c_10 val_main_c_11
    val_main_v5 val_main_v1 val_main_v0 val_main_v4
  unfold Gcn.srcIdx Gcn.wrapCol Gcn.idsRow0
  rfl

/-- The same, as the third aggregation reads them. -/
theorem src73 : val_main_v73 (F := F) e1 = Gcn.srcIdx wR e1 := by
  unfold val_main_v73 val_main_v72 val_main_v69 val_main_v71 val_main_v68 val_main_v70 val_main_c_13 val_main_c_14
    val_main_v5 val_main_v1 val_main_v0 val_main_v4
  unfold Gcn.srcIdx Gcn.wrapCol Gcn.idsRow0
  rfl

/-- The target ids, as the first aggregation reads them. -/
theorem dst44 : val_main_v44 (F := F) e1 = Gcn.dstIdx wR e1 := by
  unfold val_main_v44 val_main_v6 val_main_v3 val_main_v2 val_main_v4
  unfold Gcn.dstIdx Gcn.idsRow1
  rfl

/-- The same, as the second aggregation reads them. -/
theorem dst62 : val_main_v62 (F := F) e1 = Gcn.dstIdx wR e1 := by
  unfold val_main_v62 val_main_v6 val_main_v3 val_main_v2 val_main_v4
  unfold Gcn.dstIdx Gcn.idsRow1
  rfl

/-- The same, as the third aggregation reads them. -/
theorem dst79 : val_main_v79 (F := F) e1 = Gcn.dstIdx wR e1 := by
  unfold val_main_v79 val_main_v6 val_main_v3 val_main_v2 val_main_v4
  unfold Gcn.dstIdx Gcn.idsRow1
  rfl

/-- The per-edge weight: the inverse square roots of the two end nodes' degrees, multiplied. -/
theorem nrm31 : val_main_v31 (F := F) e1 = Gcn.nrm (F := F) wR e1 := by
  unfold val_main_v31 val_main_v23 val_main_v30 val_main_v16 val_main_v12 val_main_v15 val_main_v14 val_main_v13 val_main_v11
    val_main_call0_v1 val_main_call0_v0 val_main_v10 val_main_v8 val_main_v7 val_main_cst val_main_cst_0 val_main_cst_1
    val_main_cst_2 val_main_cst_3
    val_main_v22 val_main_v21 val_main_v18 val_main_v20 val_main_v17 val_main_v19 val_main_c val_main_c_4
    val_main_v29 val_main_v28 val_main_v25 val_main_v27 val_main_v24 val_main_v26 val_main_c_5 val_main_c_6
    val_main_v9 val_main_v5 val_main_v6 val_main_v1 val_main_v0 val_main_v3 val_main_v2 val_main_v4
  unfold Gcn.nrm Gcn.dinv Gcn.deg Gcn.srcIdx Gcn.dstIdx Gcn.wrapCol Gcn.idsRow0 Gcn.idsRow1
  rfl

end Edge

variable (x0 : (⟨S50000x128, .f32⟩ : BufTy).Contents (Elt Ideal)) (x1 : (⟨S2x800000, .i32⟩ : BufTy).Contents (Elt Ideal))
  (x2 : (⟨S50000x64, .f32⟩ : BufTy).Contents (Elt Ideal)) (x3 : (⟨S128x128, .f32⟩ : BufTy).Contents (Elt Ideal))
  (x4 : (⟨S128, .f32⟩ : BufTy).Contents (Elt Ideal)) (x5 : (⟨S128x64, .f32⟩ : BufTy).Contents (Elt Ideal))
  (x6 : (⟨S64, .f32⟩ : BufTy).Contents (Elt Ideal)) (x7 : (⟨S128x64, .f32⟩ : BufTy).Contents (Elt Ideal))
  (x8 : (⟨S64, .f32⟩ : BufTy).Contents (Elt Ideal)) (x9 : (⟨S64x64, .f32⟩ : BufTy).Contents (Elt Ideal))
  (x10 : (⟨S64, .f32⟩ : BufTy).Contents (Elt Ideal))

/-! ## The hidden layer: `relu (agg (x·W1) + b1)` -/

/-- The first product is `x·W1`. -/
theorem mm32 : val_main_v32 (F := Ideal) x0 x3 = Gcn.mm x0 x3 :=
  mm_of_apply x0 x3 _ lidx_main_v32 ridx_main_v32
    (fun r j k => funext fun a => match a with | ⟨0, _⟩ => rfl | ⟨1, _⟩ => rfl)
    (fun r j k => funext fun a => match a with | ⟨0, _⟩ => rfl | ⟨1, _⟩ => rfl)
    (val_main_v32_apply x0 x3)

/-- The hidden layer is the specification's `hidR`. -/
theorem hid49 : val_main_v49 (F := Ideal) x0 x1 x3 x4
    = Gcn.hidR hN (Gcn.srcIdx wR x1) (Gcn.dstIdx wR x1) (Gcn.nrm (F := Ideal) wR x1) x0 x3 x4 := by
  unfold val_main_v49 val_main_v48 val_main_v45 val_main_v42 val_main_v39 val_main_v41 val_main_v40 val_main_v43 val_main_cst_9
    val_main_v47 val_main_v46 val_main_call1_v0 val_main_call1_cst
  rw [src38, dst44, nrm31, mm32, agg128, addRow128, relu128]
  rfl

/-! ## The mean: `agg (hid·Wm) + bm` -/

/-- The mean branch's product is `hid·Wm`. -/
theorem mm50 : val_main_v50 (F := Ideal) x0 x1 x3 x4 x5
    = Gcn.mm (Gcn.hidR hN (Gcn.srcIdx wR x1) (Gcn.dstIdx wR x1) (Gcn.nrm (F := Ideal) wR x1) x0 x3 x4) x5 :=
  mm_of_apply _ x5 _ lidx_main_v50 ridx_main_v50
    (fun r j k => funext fun a => match a with | ⟨0, _⟩ => rfl | ⟨1, _⟩ => rfl)
    (fun r j k => funext fun a => match a with | ⟨0, _⟩ => rfl | ⟨1, _⟩ => rfl)
    (fun i => by rw [val_main_v50_apply, hid49])

/-- The reference's first result is the specification's `meanR` of the arguments. -/
theorem mean_eq :
    val_main_v66 (F := Ideal) x0 x1 x3 x4 x5 x6
      = Gcn.meanR (N := 50000) (E := 850000) (by decide) (Gcn.srcIdx wR x1) (Gcn.dstIdx wR x1) (Gcn.nrm (F := Ideal) wR x1) x0 x3 x4 x5 x6 := by
  unfold val_main_v66 val_main_v63 val_main_v60 val_main_v57 val_main_v59 val_main_v58 val_main_v61 val_main_cst_12
    val_main_v65 val_main_v64
  rw [src56, dst62, nrm31, mm50, agg64, addRow64]
  rfl

/-! ## The log-variance: `tanh (relu (agg (hid·Wv) + bv)·Wl + bl)` -/

/-- The log-variance branch's first product is `hid·Wv`. -/
theorem mm67 : val_main_v67 (F := Ideal) x0 x1 x3 x4 x7
    = Gcn.mm (Gcn.hidR hN (Gcn.srcIdx wR x1) (Gcn.dstIdx wR x1) (Gcn.nrm (F := Ideal) wR x1) x0 x3 x4) x7 :=
  mm_of_apply _ x7 _ lidx_main_v67 ridx_main_v67
    (fun r j k => funext fun a => match a with | ⟨0, _⟩ => rfl | ⟨1, _⟩ => rfl)
    (fun r j k => funext fun a => match a with | ⟨0, _⟩ => rfl | ⟨1, _⟩ => rfl)
    (fun i => by rw [val_main_v67_apply, hid49])

/-- Its aggregation with the bias row, then the positive part. -/
theorem act84 : val_main_v84 (F := Ideal) x0 x1 x3 x4 x7 x8
    = Gcn.relu (Gcn.addRow (Gcn.agg hN (Gcn.srcIdx wR x1) (Gcn.dstIdx wR x1) (Gcn.nrm (F := Ideal) wR x1)
        (Gcn.mm (Gcn.hidR hN (Gcn.srcIdx wR x1) (Gcn.dstIdx wR x1) (Gcn.nrm (F := Ideal) wR x1) x0 x3 x4) x7)) x8) := by
  unfold val_main_v84 val_main_v83 val_main_v80 val_main_v77 val_main_v74 val_main_v76 val_main_v75 val_main_v78 val_main_cst_15
    val_main_v82 val_main_v81 val_main_call2_v0 val_main_call2_cst
  rw [src73, dst79, nrm31, mm67, agg64, addRow64, relu64]

/-- The dense layer's product and bias row. -/
theorem pre88 : val_main_v88 (F := Ideal) x0 x1 x3 x4 x7 x8 x9 x10
    = Gcn.addRow (Gcn.mm (Gcn.relu (Gcn.addRow (Gcn.agg hN (Gcn.srcIdx wR x1) (Gcn.dstIdx wR x1) (Gcn.nrm (F := Ideal) wR x1)
        (Gcn.mm (Gcn.hidR hN (Gcn.srcIdx wR x1) (Gcn.dstIdx wR x1) (Gcn.nrm (F := Ideal) wR x1) x0 x3 x4) x7)) x8)) x9) x10 := by
  have h85 : val_main_v85 (F := Ideal) x0 x1 x3 x4 x7 x8 x9
      = Gcn.mm (Gcn.relu (Gcn.addRow (Gcn.agg hN (Gcn.srcIdx wR x1) (Gcn.dstIdx wR x1) (Gcn.nrm (F := Ideal) wR x1)
          (Gcn.mm (Gcn.hidR hN (Gcn.srcIdx wR x1) (Gcn.dstIdx wR x1) (Gcn.nrm (F := Ideal) wR x1) x0 x3 x4) x7)) x8)) x9 :=
    mm_of_apply _ x9 _ lidx_main_v85 ridx_main_v85
      (fun r j k => funext fun a => match a with | ⟨0, _⟩ => rfl | ⟨1, _⟩ => rfl)
      (fun r j k => funext fun a => match a with | ⟨0, _⟩ => rfl | ⟨1, _⟩ => rfl)
      (fun i => by rw [val_main_v85_apply, act84])
  unfold val_main_v88 val_main_v87 val_main_v86
  rw [h85, addRow64]

/-- The second is `logvarR`. -/
theorem logvar_eq :
    val_main_v89 (F := Ideal) x0 x1 x3 x4 x7 x8 x9 x10
      = Gcn.logvarR (N := 50000) (E := 850000) (by decide) (Gcn.srcIdx wR x1) (Gcn.dstIdx wR x1) (Gcn.nrm (F := Ideal) wR x1) x0 x3 x4 x7 x8 x9 x10 := by
  funext i
  rw [val_main_v89_apply, pre88, Ideal.hostUnary_tanh_def]
  rfl

/-! ## The sample: `noise · exp (½ · logvar) + mean` -/

/-- The third is `zR`. -/
theorem z_eq :
    val_main_v94 (F := Ideal) x0 x1 x2 x3 x4 x5 x6 x7 x8 x9 x10
      = Gcn.zR (N := 50000) (E := 850000) (by decide) (Gcn.srcIdx wR x1) (Gcn.dstIdx wR x1) (Gcn.nrm (F := Ideal) wR x1) x0 x2 x3 x4 x5 x6 x7 x8 x9 x10 := by
  funext i
  rw [val_main_v94_apply, val_main_v93_apply, val_main_v92_apply, val_main_v91_apply, val_main_v90_apply,
    val_main_cst_16_apply, mean_eq, logvar_eq]
  simp only [Ideal.addf_def, Ideal.mulf_def, Ideal.hostUnary_exp_def, Ideal.ofBits_def]
  rfl

end Cert.ReferenceIdeal.RefValue

end
-- ==== Proof.SpecLaw.lean ====
/-
  The reference's results are the kernel's, on finite inputs and finite edge weights.

  One law does the work: the aggregation commutes with a matrix applied on the right, `(agg f)·W = agg (f·W)`, for finite
  `f`, `W` and weights (RealAlg.lean's `agg_mul_eq`, row by row and column by column). With it the two hidden layers are
  the same table; that table is finite (sums and products of finite values, then a maximum with 0), so the law applies
  once more to `mean` and to the pre-activation of `logvar`; the concatenated matrix `[Wm | Wv]` read in its left half is
  `Wm` and in its right half `Wv`, and likewise the bias. Everything after that is the same expression on both sides.
-/
import proofs.«419545_j24842090840532_3_alg».proof.Proof.Spec

noncomputable section

open scoped BigOperators

namespace Gcn

open Idealize.ShloMosaic Idealize.ShloMosaic.ValueIdx Idealize.ShloMosaic.RowScatter EdgeAgg

/-! ## The halves of a concatenation -/

theorem catCols_lo {K : Nat} (A B : (⟨2, ![K, 64]⟩ : Shape).Idx → EReal) (k : Fin K) (j : Fin 64) :
    catCols A B (ix2 k (lo j)) = A (ix2 k j) := by
  unfold catCols
  have h : ((ix2 k (lo j) : (⟨2, ![K, 128]⟩ : Shape).Idx) 1).val < 64 := j.isLt
  rw [dif_pos h]
  rfl

theorem catCols_hi {K : Nat} (A B : (⟨2, ![K, 64]⟩ : Shape).Idx → EReal) (k : Fin K) (j : Fin 64) :
    catCols A B (ix2 k (hi j)) = B (ix2 k j) := by
  unfold catCols
  have h : ¬ ((ix2 k (hi j) : (⟨2, ![K, 128]⟩ : Shape).Idx) 1).val < 64 := by
    show ¬ (64 + j.val < 64); omega
  rw [dif_neg h]
  congr 1
  funext a
  match a with
  | ⟨0, _⟩ => rfl
  | ⟨1, _⟩ => exact Fin.ext (by show 64 + j.val - 64 = j.val; omega)

theorem cat_lo (a b : (⟨1, ![64]⟩ : Shape).Idx → EReal) (j : Fin 64) : cat a b (ix1 (lo j)) = a (ix1 j) := by
  unfold cat
  have h : ((ix1 (lo j) : (⟨1, ![128]⟩ : Shape).Idx) 0).val < 64 := j.isLt
  rw [dif_pos h]
  rfl

theorem cat_hi (a b : (⟨1, ![64]⟩ : Shape).Idx → EReal) (j : Fin 64) : cat a b (ix1 (hi j)) = b (ix1 j) := by
  unfold cat
  have h : ¬ ((ix1 (hi j) : (⟨1, ![128]⟩ : Shape).Idx) 0).val < 64 := by
    show ¬ (64 + j.val < 64); omega
  rw [dif_neg h]
  congr 1
  funext a
  match a with
  | ⟨0, _⟩ => exact Fin.ext (by show 64 + j.val - 64 = j.val; omega)

section Region1
variable {M : Nat} (A : (⟨2, ![M, 128]⟩ : Shape).Idx → EReal) (Wmv : (⟨2, ![128, 128]⟩ : Shape).Idx → EReal)
  (bmv : (⟨1, ![128]⟩ : Shape).Idx → EReal) (Wl : (⟨2, ![64, 64]⟩ : Shape).Idx → EReal)
  (bl : (⟨1, ![64]⟩ : Shape).Idx → EReal)

theorem mlv1_lo (r : Fin M) (j : Fin 64) : mlv1 A Wmv bmv Wl bl (ix2 r (lo j)) = out1 A Wmv bmv (ix2 r (lo j)) := by
  unfold mlv1
  have h : ((ix2 r (lo j) : (⟨2, ![M, 128]⟩ : Shape).Idx) 1).val < 64 := j.isLt
  rw [if_pos h]

theorem mlv1_hi (r : Fin M) (j : Fin 64) : mlv1 A Wmv bmv Wl bl (ix2 r (hi j)) = lv1 A Wmv bmv Wl bl (ix2 r j) := by
  unfold mlv1
  have h : ¬ ((ix2 r (hi j) : (⟨2, ![M, 128]⟩ : Shape).Idx) 1).val < 64 := by
    show ¬ (64 + j.val < 64); omega
  rw [if_neg h]
  congr 1
  funext a
  match a with
  | ⟨0, _⟩ => rfl
  | ⟨1, _⟩ => exact Fin.ext (by show 64 + j.val - 64 = j.val; omega)

end Region1

/-! ## Finite tables stay finite -/

theorem fin_mm {M K J : Nat} {X : (⟨2, ![M, K]⟩ : Shape).Idx → EReal} {W : (⟨2, ![K, J]⟩ : Shape).Idx → EReal}
    (hX : ∀ i, Fin' (X i)) (hW : ∀ i, Fin' (W i)) (i) : Fin' (mm X W i) :=
  Fin'.sum _ _ fun _ _ => (hX _).mul (hW _)

theorem fin_addRow {M J : Nat} {Y : (⟨2, ![M, J]⟩ : Shape).Idx → EReal} {b : (⟨1, ![J]⟩ : Shape).Idx → EReal}
    (hY : ∀ i, Fin' (Y i)) (hb : ∀ i, Fin' (b i)) (i) : Fin' (addRow Y b i) := (hY _).add (hb _)

theorem fin_relu {S : Shape} {Y : S.Idx → EReal} (hY : ∀ i, Fin' (Y i)) (i) : Fin' (relu Y i) := (hY _).max Fin'.zero

section Agg
variable {N E : Nat} (hN : 0 < N) (srcI dstI : IVec ⟨2, ![E, 1]⟩ 32) (nrm : (⟨1, ![E]⟩ : Shape).Idx → EReal)

theorem fin_agg {D : Nat} {f : (⟨2, ![N, D]⟩ : Shape).Idx → EReal} (hf : ∀ i, Fin' (f i)) (hn : ∀ e, Fin' (nrm e)) (i) :
    Fin' (agg hN srcI dstI nrm f i) :=
  Fin'.zero.add (Fin'.sum _ _ fun _ _ => Fin'.ite ((hf _).mul (hn _)) Fin'.zero)

/-- THE LAW, for whole tables. -/
theorem mm_agg {K J : Nat} (f : (⟨2, ![N, K]⟩ : Shape).Idx → EReal) (W : (⟨2, ![K, J]⟩ : Shape).Idx → EReal)
    (hf : ∀ i, Fin' (f i)) (hW : ∀ i, Fin' (W i)) (hn : ∀ e, Fin' (nrm e)) :
    mm (agg hN srcI dstI nrm f) W = agg hN srcI dstI nrm (mm f W) := by
  funext i
  exact agg_mul_eq (fun e => (dstI (ix2 e 0)).toInt = ((i 0).val : ℤ))
    (fun e k => f (ix2 (rowOf N hN (srcI (ix2 e 0))) k)) (fun e => nrm (ix1 e)) (fun k => W (ix2 k (i 1)))
    (fun _ _ => hf _) (fun _ => hn _) (fun _ => hW _)

variable (x : (⟨2, ![N, 128]⟩ : Shape).Idx → EReal) (noise : (⟨2, ![N, 64]⟩ : Shape).Idx → EReal)
  (W1 : (⟨2, ![128, 128]⟩ : Shape).Idx → EReal) (b1 : (⟨1, ![128]⟩ : Shape).Idx → EReal)
  (Wm : (⟨2, ![128, 64]⟩ : Shape).Idx → EReal) (bm : (⟨1, ![64]⟩ : Shape).Idx → EReal)
  (Wv : (⟨2, ![128, 64]⟩ : Shape).Idx → EReal) (bv : (⟨1, ![64]⟩ : Shape).Idx → EReal)
  (Wl : (⟨2, ![64, 64]⟩ : Shape).Idx → EReal) (bl : (⟨1, ![64]⟩ : Shape).Idx → EReal)
  (hx : ∀ i, Fin' (x i)) (hW1 : ∀ i, Fin' (W1 i)) (hb1 : ∀ i, Fin' (b1 i))
  (hWm : ∀ i, Fin' (Wm i)) (hWv : ∀ i, Fin' (Wv i)) (hn : ∀ e, Fin' (nrm e))

include hx hW1 hn in
/-- The two hidden layers are one table. -/
theorem hidR_eq : hidR hN srcI dstI nrm x W1 b1 = hidK hN srcI dstI nrm x W1 b1 := by
  unfold hidR hidK hid0
  rw [mm_agg hN srcI dstI nrm x W1 hx hW1 hn]

include hx hW1 hb1 hn in
/-- The hidden layer is finite. -/
theorem fin_hidK (i) : Fin' (hidK hN srcI dstI nrm x W1 b1 i) :=
  fin_relu (fin_addRow (fin_mm (fin_agg hN srcI dstI nrm hx hn) hW1) hb1) i

include hx hW1 hb1 hWm hn in
/-- `mean`. -/
theorem meanR_eq : meanR hN srcI dstI nrm x W1 b1 Wm bm = meanK hN srcI dstI nrm x W1 b1 Wm bm Wv bv Wl bl := by
  funext i
  obtain ⟨r, j, rfl⟩ : ∃ (r : Fin N) (j : Fin 64), i = ix2 r j := ⟨i 0, i 1, eq_ix2 i⟩
  unfold meanR meanK
  rw [hidR_eq hN srcI dstI nrm x W1 b1 hx hW1 hn,
    ← mm_agg hN srcI dstI nrm _ Wm (fin_hidK hN srcI dstI nrm x W1 b1 hx hW1 hb1 hn) hWm hn]
  show _ = mlv1 _ _ _ Wl bl (ix2 r (lo j))
  rw [mlv1_lo]
  unfold out1 addRow mm aggHidK
  show (∑ k : Fin 128, _ * Wm (ix2 k j)) + bm (ix1 j) = (∑ k : Fin 128, _ * catCols Wm Wv (ix2 k (lo j))) + cat bm bv (ix1 (lo j))
  rw [cat_lo]
  congr 1
  refine Finset.sum_congr rfl fun k _ => ?_
  rw [catCols_lo]
  rfl

include hx hW1 hb1 hWv hn in
/-- `logvar`. -/
theorem logvarR_eq :
    logvarR hN srcI dstI nrm x W1 b1 Wv bv Wl bl = logvarK hN srcI dstI nrm x W1 b1 Wm bm Wv bv Wl bl := by
  funext i
  obtain ⟨r, j, rfl⟩ : ∃ (r : Fin N) (j : Fin 64), i = ix2 r j := ⟨i 0, i 1, eq_ix2 i⟩
  unfold logvarR logvarK
  rw [hidR_eq hN srcI dstI nrm x W1 b1 hx hW1 hn,
    ← mm_agg hN srcI dstI nrm _ Wv (fin_hidK hN srcI dstI nrm x W1 b1 hx hW1 hb1 hn) hWv hn]
  show _ = mlv1 _ _ _ Wl bl (ix2 r (hi j))
  rw [mlv1_hi]
  unfold lv1
  show Ideal.tanh ((∑ k : Fin 64, _ * Wl (ix2 k j)) + bl (ix1 j)) = Ideal.tanh ((∑ k : Fin 64, _ * Wl (ix2 k j)) + bl (ix1 j))
  refine congrArg Ideal.tanh (congrArg (· + bl (ix1 j)) (Finset.sum_congr rfl fun k _ => ?_))
  refine congrArg (fun y => max y 0 * Wl (ix2 k j)) ?_
  show addRow (mm _ Wv) bv (ix2 r k) = out1 _ (catCols Wm Wv) (cat bm bv) (ix2 r (hi k))
  unfold out1 addRow mm aggHidK
  show (∑ k' : Fin 128, _ * Wv (ix2 k' k)) + bv (ix1 k) = (∑ k' : Fin 128, _ * catCols Wm Wv (ix2 k' (hi k))) + cat bm bv (ix1 (hi k))
  rw [cat_hi]
  congr 1
  refine Finset.sum_congr rfl fun k' _ => ?_
  rw [catCols_hi]
  rfl

include hx hW1 hb1 hWm hWv hn in
/-- `z`. -/
theorem zR_eq :
    zR hN srcI dstI nrm x noise W1 b1 Wm bm Wv bv Wl bl = zK hN srcI dstI nrm x noise W1 b1 Wm bm Wv bv Wl bl := by
  funext i
  obtain ⟨r, j, rfl⟩ : ∃ (r : Fin N) (j : Fin 64), i = ix2 r j := ⟨i 0, i 1, eq_ix2 i⟩
  unfold zR zK z1
  have e1 := congrFun (logvarR_eq hN srcI dstI nrm x W1 b1 Wm bm Wv bv Wl bl hx hW1 hb1 hWv hn) (ix2 r j)
  have e2 := congrFun (meanR_eq hN srcI dstI nrm x W1 b1 Wm bm Wv bv Wl bl hx hW1 hb1 hWm hn) (ix2 r j)
  rw [e1, e2]
  unfold logvarK meanK
  show _ * Ideal.exp (half * mlv1 _ _ _ Wl bl (ix2 r (hi j))) + mlv1 _ _ _ Wl bl (ix2 r (lo j)) = _
  rw [mlv1_hi, mlv1_lo]
  rfl

end Agg

end Gcn

end
-- ==== Proof.EdgeFinite.lean ====
/-
  The edge weights are finite.

  `deg` at a node is `0` plus a sum of ones (one per edge whose target is the node): a real number. Where `deg > 0` its
  square root is a nonzero real, so `1 / sqrt(deg)` is a real; elsewhere `dinv` is the literal `0`. A gather reads an
  entry of its table whatever the index, so both factors of an edge's weight are entries of `dinv`, and the weight is
  their product.
-/
import proofs.«419545_j24842090840532_3_alg».proof.Proof.EdgeData

noncomputable section

open scoped BigOperators

namespace Gcn

open Idealize.ShloMosaic Idealize.ShloMosaic.ValueIdx Idealize.ShloMosaic.RowScatter EdgeAgg

/-- The literal `1.0` is a real number (its exponent field is not all ones). -/
theorem fin_one : Fin' (Ideal.ofBits .f32 0x3F800000#32) := by
  unfold Ideal.ofBits Ideal.ieee
  dsimp only
  split_ifs with h1 h2 h3 h4 h5
  all_goals first
    | exact ⟨_, rfl⟩
    | (exfalso; revert h1; decide)

/-- Finite updates accumulated into a finite operand stay finite, whatever the extents. -/
theorem fin_scatterSegs {R E b : Nat} (wf : ScatterDims.WF ⟨1, ![R]⟩ ⟨2, ![E, 1]⟩ ⟨1, ![E]⟩ [] [0] [0] 1)
    (x : (⟨1, ![R]⟩ : Shape).Idx → EReal) (idx : IVec ⟨2, ![E, 1]⟩ b) (upd : (⟨1, ![E]⟩ : Shape).Idx → EReal)
    (hx : ∀ i, Fin' (x i)) (hu : ∀ e, Fin' (upd e)) (i : (⟨1, ![R]⟩ : Shape).Idx) :
    Fin' (Ideal.hostScatterAdd (scatterSegs R E wf) x idx upd i) := by
  obtain ⟨r, rfl⟩ : ∃ r : Fin R, i = ix1 r := ⟨i 0, eq_ix1 i⟩
  rw [scatterAdd_segs_apply]
  exact (hx _).add (Fin'.sum _ _ fun e _ => Fin'.ite (hu _) Fin'.zero)

/-- The same for the host operation as the programs spell it. (Stated for generic extents: at literal extents the
    operation must never be opened, its sum runs over every edge.) -/
theorem fin_hostScatterSegs {R E b : Nat} (wf : ScatterDims.WF ⟨1, ![R]⟩ ⟨2, ![E, 1]⟩ ⟨1, ![E]⟩ [] [0] [0] 1)
    (x : FVec Ideal ⟨1, ![R]⟩ .f32) (idx : IVec ⟨2, ![E, 1]⟩ b) (upd : FVec Ideal ⟨1, ![E]⟩ .f32)
    (hx : ∀ i, Fin' (x i)) (hu : ∀ e, Fin' (upd e)) (i : (⟨1, ![R]⟩ : Shape).Idx) :
    Fin' (Host.scatterAdd (F := Ideal) (scatterSegs R E wf) x idx upd i) := by
  unfold Host.scatterAdd
  rw [Ideal.hostScatterAdd_def]
  exact fin_scatterSegs wf x idx upd hx hu i

theorem fin_zero_lit : Fin' (Ideal.ofBits .f32 0x00000000#32) := by
  rw [Ideal.ofBits_zero_f32]; exact Fin'.zero

variable (w : Wit) (ei : IVec SEi 32)

theorem fin_bcast_zero (j : SN.Idx) :
    Fin' ((broadcastInDim SN ![] w.bN (constant (F := Ideal) S0 .f32 0x00000000#32)) j) := by
  show Fin' (Ideal.ofBits .f32 0x00000000#32)
  exact fin_zero_lit

theorem fin_bcast_one (e : SE.Idx) :
    Fin' ((broadcastInDim SE ![] w.bE (constant (F := Ideal) S0 .f32 0x3F800000#32)) e) := by
  show Fin' (Ideal.ofBits .f32 0x3F800000#32)
  exact fin_one

/-- The in-degree is a real number: `0` plus a sum of ones. -/
theorem fin_deg (i : SN.Idx) : Fin' (deg (F := Ideal) w ei i) := by
  delta deg
  exact fin_hostScatterSegs w.swf _ _ _ (fin_bcast_zero w) (fin_bcast_one w) i

/-- `where(d > 0, 1 / sqrt(d), 0)` of a table of real numbers is a table of real numbers: where `d > 0` its square root
    is a nonzero real, elsewhere the literal `0` is taken. -/
theorem fin_dinvOf (D : FVec Ideal SN .f32) (hD : ∀ i, Fin' (D i)) (i : SN.Idx) :
    Fin' ((select (cmpf .ogt D (broadcastInDim SN ![] w.bN (constant (F := Ideal) S0 .f32 0x00000000#32)))
      (Host.divf (broadcastInDim SN ![] w.bN (constant (F := Ideal) S0 .f32 0x3F800000#32)) (Host.sqrt D))
      (broadcastInDim SN ![] w.bN (id (constant (F := Ideal) S0 .f32 0x00000000#32)))) i) := by
  rw [select_apply]
  obtain ⟨d, hd⟩ := hD i
  have hz : (broadcastInDim SN ![] w.bN (constant (F := Ideal) S0 .f32 0x00000000#32)) i = 0 := by
    show Ideal.ofBits .f32 0x00000000#32 = 0
    exact Ideal.ofBits_zero_f32
  have hone : (broadcastInDim SN ![] w.bN (constant (F := Ideal) S0 .f32 0x3F800000#32)) i = Ideal.ofBits .f32 0x3F800000#32 := rfl
  by_cases hc : cmpf .ogt D (broadcastInDim SN ![] w.bN (constant (F := Ideal) S0 .f32 0x00000000#32)) i = 1#1
  · rw [hc, select_one]
    have hpos : (0 : EReal) < D i := by
      have h := hc
      rw [cmpf_apply, Ideal.cmpf_def, hz] at h
      unfold Ideal.cmp at h
      by_contra hn
      simp [hn] at h
    rw [hd] at hpos
    have hd0 : 0 < d := by exact_mod_cast hpos
    have e1 : (Host.divf (broadcastInDim SN ![] w.bN (constant (F := Ideal) S0 .f32 0x3F800000#32)) (Host.sqrt D)) i
        = Ideal.div (Ideal.ofBits .f32 0x3F800000#32) (Ideal.sqrt (D i)) := by
      simp only [Host.divf, Host.sqrt, Ideal.hostDivf_def, Ideal.hostUnary_sqrt_def, hone]
    rw [e1, hd]
    have hs : Ideal.sqrt ((d : ℝ) : EReal) = ((Real.sqrt d : ℝ) : EReal) := by
      show (if d < 0 then ⊥ else ((Real.sqrt d : ℝ) : EReal)) = _
      rw [if_neg (not_lt.mpr hd0.le)]
    rw [hs, Ideal.div_coe (ne_of_gt (Real.sqrt_pos.mpr hd0))]
    exact Fin'.mul fin_one (Fin'.coe _)
  · rw [eq_zero_of_ne_one hc, select_zero]
    show Fin' (Ideal.ofBits .f32 0x00000000#32)
    exact fin_zero_lit

/-- `dinv` is a real number at every node. -/
theorem fin_dinv (i : SN.Idx) : Fin' (dinv (F := Ideal) w ei i) := by
  delta dinv
  exact fin_dinvOf w _ (fin_deg w ei) i

/-- The weight of every edge is a real number: a product of two entries of `dinv` (a gather reads an entry of its table
    whatever the index). -/
theorem fin_nrm (e : SE.Idx) : Fin' (nrm (F := Ideal) w ei e) := by
  delta nrm
  rw [mulf_apply]
  exact Fin'.mul (fin_dinv w ei _) (fin_dinv w ei _)

end Gcn

end
-- ==== Proof.PreFinite.lean ====
/-
  The precondition makes the float inputs finite.

  The printed predicate is a conjunction, one conjunct per float input: "every entry's absolute value is below +∞",
  an `and`-reduction of entrywise comparisons. A conjunction of one-bit words is 1 only if each word is; an `and`-reduction
  that is 1 met only 1s; and `|a| < +∞` on the extended reals says `a` is neither infinity, that is, a real number.
-/
import proofs.«419545_j24842090840532_3_alg».proof.Pre_finite_inputs
import proofs.«419545_j24842090840532_3_alg».proof.Proof.RealAlg
import Idealize.ShloMosaic.Lib.ReduceAll
import Idealize.ShloMosaic.Lib.ValueIdx
import Idealize.ShloMosaic.PureOps.Ideal.Laws

noncomputable section

namespace Cert.Pre_finite_inputs

open Idealize.ShloMosaic Idealize.ShloMosaic.ValueIdx EdgeAgg

/-- The pattern `0x7F800000` is `+∞`. -/
theorem ofBits_inf : Ideal.ofBits .f32 0x7F800000#32 = ⊤ := by simp [Ideal.ofBits, Ideal.ieee]

/-- `|a| < +∞` says `a` is a real number. -/
theorem fin_of_abs_lt {a : EReal}
    (h : FloatOps.cmpf (F := Ideal) (φ := .f32) .olt (FloatOps.hostAbsf (F := Ideal) (φ := .f32) a) (Ideal.ofBits .f32 0x7F800000#32) = 1#1) :
    Fin' a := by
  rw [ofBits_inf, Ideal.cmpf_def] at h
  have hlt : max a (-a) < ⊤ := by
    by_contra hn
    have : Ideal.cmp .olt (max a (-a)) ⊤ = 0#1 := by
      unfold Ideal.cmp
      simp [hn]
    rw [show FloatOps.hostAbsf (F := Ideal) (φ := .f32) a = max a (-a) from rfl, this] at h
    exact absurd h (by decide)
  induction a using EReal.rec with
  | bot => exact absurd hlt (by simp)
  | coe r => exact ⟨r, rfl⟩
  | top => exact absurd hlt (by simp)

variable [Facts]
open Facts

instance : Subsingleton S_.Idx := ⟨fun _ _ => funext fun d => d.elim0⟩

/-- Under the precondition the five inputs the joining law multiplies are finite: the features, the first layer's
    weights and bias, and the two projection matrices. -/
theorem fin_args (a0 : FVec Ideal S50000x128 .f32) (a1 : IVec S2x800000 32) (a2 : FVec Ideal S50000x64 .f32)
    (a3 : FVec Ideal S128x128 .f32) (a4 : FVec Ideal S128 .f32) (a5 : FVec Ideal S128x64 .f32) (a6 : FVec Ideal S64 .f32)
    (a7 : FVec Ideal S128x64 .f32) (a8 : FVec Ideal S64 .f32) (a9 : FVec Ideal S64x64 .f32) (a10 : FVec Ideal S64 .f32)
    (h : fn (F := Ideal) a0 a1 a2 a3 a4 a5 a6 a7 a8 a9 a10 = fun _ => 1#1) :
    (∀ i, Fin' (a0 i)) ∧ (∀ i, Fin' (a3 i)) ∧ (∀ i, Fin' (a4 i)) ∧ (∀ i, Fin' (a5 i)) ∧ (∀ i, Fin' (a7 i)) := by
  have h0 := congrFun h ix0
  dsimp only [fn, fn_part1, fn_part2] at h0
  obtain ⟨h1, -⟩ := IntOp.andi_eq_one.1 h0
  obtain ⟨h2, -⟩ := IntOp.andi_eq_one.1 h1
  obtain ⟨h3, -⟩ := IntOp.andi_eq_one.1 h2
  obtain ⟨h4, e7⟩ := IntOp.andi_eq_one.1 h3
  obtain ⟨h5, -⟩ := IntOp.andi_eq_one.1 h4
  obtain ⟨h6, e5⟩ := IntOp.andi_eq_one.1 h5
  obtain ⟨h7, e4⟩ := IntOp.andi_eq_one.1 h6
  obtain ⟨h8, e3⟩ := IntOp.andi_eq_one.1 h7
  obtain ⟨e0, -⟩ := IntOp.andi_eq_one.1 h8
  exact ⟨fun i => fin_of_abs_lt (Host.reduce_andi_all _ _ _ _ _ e0 i),
    fun i => fin_of_abs_lt (Host.reduce_andi_all _ _ _ _ _ e3 i),
    fun i => fin_of_abs_lt (Host.reduce_andi_all _ _ _ _ _ e4 i),
    fun i => fin_of_abs_lt (Host.reduce_andi_all _ _ _ _ _ e5 i),
    fun i => fin_of_abs_lt (Host.reduce_andi_all _ _ _ _ _ e7 i)⟩

end Cert.Pre_finite_inputs

end
-- ==== Proof.lean ====
/-
  Two-layer graph convolution with a reparameterised output: the kernel against its jnp reference, over the extended reals.

  Both programs read the edge list the same way (self-loops appended, in-degrees, the symmetric weights
  `dinv[src] · dinv[dst]`) and AGGREGATE a node table over it: row `r` of the result is the sum, over the edges into `r`,
  of the source node's row times the edge's weight. The reference applies each layer's matrix BEFORE aggregating,
  `agg (h·W)`; the kernel aggregates first and applies the matrix inside its pallas_call, `(agg h)·W`, and it computes the
  two projections `Wm`, `Wv` as one product with the concatenation `[Wm | Wv]`, whose halves it then slices apart.

  The two agree because aggregation is linear: `(agg f)·W = agg (f·W)` whenever the entries are real numbers, where
  multiplication distributes over addition (Proof/RealAlg.lean, Proof/SpecLaw.lean). The features and weights are real by
  the precondition (Proof/PreFinite.lean); the edge weights are real because an in-degree is a finite sum of ones and
  `1 / sqrt` is only taken of positive ones (Proof/EdgeFinite.lean); the hidden layer is real because it is built from
  those by sums, products and a maximum with zero. After the second aggregation both programs apply the same operations
  (bias, relu, a 64 × 64 product, tanh, exp, the product with the noise), on infinite values too.

  What each program's result buffers hold is read off its run: for the kernel, the generated frame's launch restated with
  the results named, the host stretches between the two regions, and each region's output array as one function of its
  input arrays (Proof/KernelRun.lean, Proof/KHost.lean, Proof/KReg.lean, Proof/KValue.lean); for the reference, its run
  one operation at a time (Proof/RefRun.lean, Proof/RefRead.lean, Proof/RefValue.lean). Both are stated against one
  specification of plain functions (Proof/Spec.lean, Proof/EdgeData.lean).
-/
import proofs.«419545_j24842090840532_3_alg».proof.Defs
import proofs.«419545_j24842090840532_3_alg».proof.Proof.Gen.Kernel
import proofs.«419545_j24842090840532_3_alg».proof.Proof.Gen.Kernel.Skeleton
import proofs.«419545_j24842090840532_3_alg».proof.Proof.Gen.Kernel.Launch
import proofs.«419545_j24842090840532_3_alg».proof.Proof.Gen.Kernel.Points
import proofs.«419545_j24842090840532_3_alg».proof.Proof.Gen.Kernel.Frame
import proofs.«419545_j24842090840532_3_alg».proof.Proof.Gen.KernelIdeal
import proofs.«419545_j24842090840532_3_alg».proof.Proof.Gen.KernelIdeal.Skeleton
import proofs.«419545_j24842090840532_3_alg».proof.Proof.Gen.KernelIdeal.Launch
import proofs.«419545_j24842090840532_3_alg».proof.Proof.Gen.KernelIdeal.Points
import proofs.«419545_j24842090840532_3_alg».proof.Proof.Gen.KernelIdeal.Frame
import proofs.«419545_j24842090840532_3_alg».proof.Proof.Gen.ReferenceIdeal
import proofs.«419545_j24842090840532_3_alg».proof.Proof.Gen.Pre_finite_inputs
import proofs.«419545_j24842090840532_3_alg».proof.Proof.KValue
import proofs.«419545_j24842090840532_3_alg».proof.Proof.RefValue
import proofs.«419545_j24842090840532_3_alg».proof.Proof.SpecLaw
import proofs.«419545_j24842090840532_3_alg».proof.Proof.EdgeFinite
import proofs.«419545_j24842090840532_3_alg».proof.Proof.PreFinite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the results dropped. -/
theorem frame_ri : Cert.frame_ReferenceIdeal := fun m ρ _ =>
  (θ_run Cert.ReferenceIdeal.defs _ _).mono (fun _ h c => (h c).2.2.2) (Cert.ReferenceIdeal.ValueP.run (F := Ideal) m ρ)

/-- From memories agreeing on the arguments both programs end with the specification's kernel-side results: the kernel by
    its run, the reference by its run and the joining law, whose finiteness hypotheses the precondition and the edge
    weights' construction supply. -/
theorem algebraic : Cert.algebraic_KernelIdeal_ReferenceIdeal := by
  intro m ρ m' ρ' hpre hagree
  refine ⟨_, _, _, Cert.KernelIdeal.KValue.run m ρ, ?_⟩
  refine (θ_run Cert.ReferenceIdeal.defs _ _).mono (fun r h c => ?_) (Cert.ReferenceIdeal.ValueP.run (F := Ideal) m' ρ')
  obtain ⟨h66, h89, h94, hargs⟩ := h c
  obtain ⟨a0, a1, a2, a3, a4, a5, a6, a7, a8, a9, a10⟩ := hagree c
  obtain ⟨f0, f3, f4, f5, f7⟩ := Cert.Pre_finite_inputs.fin_args _ _ _ _ _ _ _ _ _ _ _ (hpre c)
  have hn := Gcn.fin_nrm Cert.KernelIdeal.HostValue.wK (m ((c.tc : Thread Cert.KernelIdeal.nD Cert.KernelIdeal.τ).loc Cert.KernelIdeal.main_arg1))
  refine ⟨h66.trans ?_, h89.trans ?_, h94.trans ?_, hargs⟩
  · rw [Cert.ReferenceIdeal.ReadP.val_main_v66_eq, Cert.ReferenceIdeal.RefValue.mean_eq, a0, a1, a3, a4, a5, a6]
    exact Gcn.meanR_eq _ _ _ _ _ _ _ _ _ _ _ _ _ f0 f3 f4 f5 hn
  · rw [Cert.ReferenceIdeal.ReadP.val_main_v89_eq, Cert.ReferenceIdeal.RefValue.logvar_eq, a0, a1, a3, a4, a7, a8, a9, a10]
    exact Gcn.logvarR_eq _ _ _ _ _ _ _ _ _ _ _ _ _ f0 f3 f4 f7 hn
  · rw [Cert.ReferenceIdeal.ReadP.val_main_v94_eq, Cert.ReferenceIdeal.RefValue.z_eq, a0, a1, a2, a3, a4, a5, a6, a7, a8, a9, a10]
    exact Gcn.zR_eq _ _ _ _ _ _ _ _ _ _ _ _ _ _ f0 f3 f4 f5 f7 hn

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
